-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x64 : Shape := ⟨3, ![32, 8192, 64]⟩
abbrev S32x8192x2 : Shape := ⟨3, ![32, 8192, 2]⟩
abbrev S_ : Shape := ⟨0, ![]⟩

class Facts : Prop where
  bcast_S_S32x8192x64 : S_.BroadcastsInDim S32x8192x64 (![] : Fin 0 → Fin S32x8192x64.rank)
  reducesTo_S32x8192x64_S_d0_1_2 : S32x8192x64.ReducesTo [0, 1, 2] S_
  h_S_ : 0 < S_.numel
  bcast_S_S32x8192x2 : S_.BroadcastsInDim S32x8192x2 (![] : Fin 0 → Fin S32x8192x2.rank)
  reducesTo_S32x8192x2_S_d0_1_2 : S32x8192x2.ReducesTo [0, 1, 2] S_

variable [Facts]

def fn {F : FTy → Type} [FloatOps F] (main_arg0 : FVec F S32x8192x64 .f32) (main_arg1 : IVec S32x8192x2 32) : IVec S_ 1 :=
  let main_v0 : FVec F S32x8192x64 .f32 := Host.absf main_arg0
  let main_cst : FVec F S_ .f32 := constant S_ .f32 0x7F800000#32
  let main_v1 : FVec F S32x8192x64 .f32 := broadcastInDim S32x8192x64 ![] bcast_S_S32x8192x64 main_cst
  let main_v2 : IVec S32x8192x64 1 := cmpf .olt main_v0 main_v1
  let main_c : IVec S_ 1 := constantI S_ 1 1#1
  let main_v3 : IVec S_ 1 := (fun x v => Host.reduce IntOp.andi x v reducesTo_S32x8192x64_S_d0_1_2 h_S_) main_v2 main_c
  let main_c_0 : IVec S_ 32 := constantI S_ 32 0#32
  let main_v4 : IVec S32x8192x2 32 := broadcastInDim S32x8192x2 ![] bcast_S_S32x8192x2 main_c_0
  let main_v5 : IVec S32x8192x2 1 := cmpi .sge main_arg1 main_v4
  let main_c_1 : IVec S_ 1 := constantI S_ 1 1#1
  let main_v6 : IVec S_ 1 := (fun x v => Host.reduce IntOp.andi x v reducesTo_S32x8192x2_S_d0_1_2 h_S_) main_v5 main_c_1
  let main_v7 : IVec S_ 1 := andi main_v3 main_v6
  let main_c_2 : IVec S_ 32 := constantI S_ 32 64#32
  let main_v8 : IVec S32x8192x2 32 := broadcastInDim S32x8192x2 ![] bcast_S_S32x8192x2 main_c_2
  let main_v9 : IVec S32x8192x2 1 := cmpi .slt main_arg1 main_v8
  let main_c_3 : IVec S_ 1 := constantI S_ 1 1#1
  let main_v10 : IVec S_ 1 := (fun x v => Host.reduce IntOp.andi x v reducesTo_S32x8192x2_S_d0_1_2 h_S_) main_v9 main_c_3
  let main_v11 : IVec S_ 1 := andi main_v7 main_v10
  main_v11
-- ==== Kernel.lean ====
abbrev S32x8192x64 : Shape := ⟨3, ![32, 8192, 64]⟩
abbrev S32x8192x2 : Shape := ⟨3, ![32, 8192, 2]⟩
abbrev S32x4096x64 : Shape := ⟨3, ![32, 4096, 64]⟩
abbrev S32x4096x1 : Shape := ⟨3, ![32, 4096, 1]⟩
abbrev S1x512x2 : Shape := ⟨3, ![1, 512, 2]⟩
abbrev S1x512x64 : Shape := ⟨3, ![1, 512, 64]⟩
abbrev S1x4096x64 : Shape := ⟨3, ![1, 4096, 64]⟩
abbrev S1x4096x1 : Shape := ⟨3, ![1, 4096, 1]⟩
abbrev S4096x128 : Shape := ⟨2, ![4096, 128]⟩
abbrev S512x2 : Shape := ⟨2, ![512, 2]⟩
abbrev S512x1 : Shape := ⟨2, ![512, 1]⟩
abbrev S512 : Shape := ⟨1, ![512]⟩
abbrev S1x512 : Shape := ⟨2, ![1, 512]⟩
abbrev S4096x512 : Shape := ⟨2, ![4096, 512]⟩
abbrev S512x64 : Shape := ⟨2, ![512, 64]⟩
abbrev S512x63 : Shape := ⟨2, ![512, 63]⟩
abbrev S512x128 : Shape := ⟨2, ![512, 128]⟩
abbrev S4096x64 : Shape := ⟨2, ![4096, 64]⟩
abbrev S4096x1 : Shape := ⟨2, ![4096, 1]⟩
abbrev S_ : Shape := ⟨0, ![]⟩
abbrev S32x64x64x64 : Shape := ⟨4, ![32, 64, 64, 64]⟩

abbrev nBuf : Space → Nat
  | .hbm => 11
  | .vmem => 9
  | .smem => 0
  | _ => 0

abbrev bufTy : (tb : Table) → Fin (tcTables nBuf tb) → BufTy
  | .hbm, ⟨0, _⟩ => ⟨S32x8192x64, .f32⟩
  | .hbm, ⟨1, _⟩ => ⟨S32x8192x2, .i32⟩
  | .hbm, ⟨2, _⟩ => ⟨S32x4096x64, .f32⟩
  | .hbm, ⟨3, _⟩ => ⟨S32x4096x1, .f32⟩
  | .hbm, ⟨4, _⟩ => ⟨S_, .f32⟩
  | .hbm, ⟨5, _⟩ => ⟨S32x4096x1, .f32⟩
  | .hbm, ⟨6, _⟩ => ⟨S32x4096x1, .f32⟩
  | .hbm, ⟨7, _⟩ => ⟨S32x4096x64, .f32⟩
  | .hbm, ⟨8, _⟩ => ⟨S32x4096x64, .f32⟩
  | .hbm, ⟨9, _⟩ => ⟨S32x64x64x64, .f32⟩
  | .hbm, ⟨10, _⟩ => ⟨S32x64x64x64, .f32⟩
  | .local _ .vmem, ⟨0, _⟩ => ⟨S1x512x2, .i32⟩
  | .local _ .vmem, ⟨1, _⟩ => ⟨S1x512x2, .i32⟩
  | .local _ .vmem, ⟨2, _⟩ => ⟨S1x512x64, .f32⟩
  | .local _ .vmem, ⟨3, _⟩ => ⟨S1x512x64, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x1, .f32⟩
  | .local _ .vmem, ⟨7, _⟩ => ⟨S1x4096x1, .f32⟩
  | .local _ .vmem, ⟨8, _⟩ => ⟨S4096x128, .f32⟩
  | _, _ => ⟨S32x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_12 : BitVec 32 := 0#32
  let v33 : BitVec 1 := Scalar.cmpi .ne v32 c0_i32_12
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  slices_S512x2_o0_0_S512x1 : S512x2.Slices ![0, 0] S512x1
  shapeCasts_S512x1_S512 : S512x1.ShapeCasts S512
  slices_S512x2_o0_1_S512x1 : S512x2.Slices ![0, 1] S512x1
  shapeCasts_S512_S1x512 : S512.ShapeCasts S1x512
  iota_S4096x512_d0_w32 : S4096x512.Iotas .tc 32 [0]
  broadcasts_S1x512_S4096x512 : S1x512.Broadcasts S4096x512
  natLt_1_32 : 1 < 32
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  concatenates_S512x64_S512x1_S512x63_S512x128_d1 : Shape.Concatenates [S512x64, S512x1, S512x63] S512x128 1
  inb_S4096x128_S4096x64_0_0 : ∀ a, (![0, 0] : Fin 2 → Nat) a + S4096x64.size a ≤ S4096x128.size a
  h_S4096x64 : 0 < S4096x64.numel
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  inb_S4096x128_S4096x1_0_64 : ∀ a, (![0, 64] : Fin 2 → Nat) a + S4096x1.size a ≤ S4096x128.size a
  h_S4096x1 : 0 < S4096x1.numel
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  bcast_S_S32x4096x1 : S_.BroadcastsInDim S32x4096x1 (![] : Fin 0 → Fin S32x4096x1.rank)
  bcast_S32x4096x1_S32x4096x64_0_1_2 : S32x4096x1.BroadcastsInDim S32x4096x64 (![0, 1, 2] : Fin 3 → Fin S32x4096x64.rank)
  shapeCasts_S32x4096x64_S32x64x64x64 : S32x4096x64.ShapeCasts S32x64x64x64
  transposes_S32x64x64x64_S32x64x64x64_0_3_1_2 : S32x64x64x64.Transposes [0, 3, 1, 2] S32x64x64x64
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2.size a ≤ S32x8192x2.size a
  hwx0_0 : ∀ i : grid0.Coords, EltTy.bits .i32 = 32 ∨ (Rect.block (s := S32x8192x2) S1x512x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S32x8192x64.size a
  hwx0_1 : ∀ i : grid0.Coords, EltTy.bits .f32 = 32 ∨ (Rect.block (s := S32x8192x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S32x4096x64.size a
  hwx0_2 : ∀ i : grid0.Coords, EltTy.bits .f32 = 32 ∨ (Rect.block (s := S32x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S32x4096x1.size a
  hwx0_3 : ∀ i : grid0.Coords, EltTy.bits .f32 = 32 ∨ (Rect.block (s := S32x4096x1) S1x4096x1.size (cc0_transform_3 i) (hinb0_3 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg1) S1x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4096x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x8192x64 : Shape := ⟨3, ![32, 8192, 64]⟩
abbrev S32x8192x2 : Shape := ⟨3, ![32, 8192, 2]⟩
abbrev S32x8192x1 : Shape := ⟨3, ![32, 8192, 1]⟩
abbrev S32x8192 : Shape := ⟨2, ![32, 8192]⟩
abbrev S32 : Shape := ⟨1, ![32]⟩
abbrev S32x1 : Shape := ⟨2, ![32, 1]⟩
abbrev S_ : Shape := ⟨0, ![]⟩
abbrev S262144 : Shape := ⟨1, ![262144]⟩
abbrev S262144x64 : Shape := ⟨2, ![262144, 64]⟩
abbrev S131072x64 : Shape := ⟨2, ![131072, 64]⟩
abbrev S262144x1 : Shape := ⟨2, ![262144, 1]⟩
abbrev S131072 : Shape := ⟨1, ![131072]⟩
abbrev S131072x1 : Shape := ⟨2, ![131072, 1]⟩
abbrev S32x64x64x64 : Shape := ⟨4, ![32, 64, 64, 64]⟩

abbrev nBuf : Space → Nat
  | .hbm => 37
  | .vmem => 0
  | .smem => 0
  | _ => 0

abbrev bufTy : (tb : Table) → Fin (tcTables nBuf tb) → BufTy
  | .hbm, ⟨0, _⟩ => ⟨S32x8192x64, .f32⟩
  | .hbm, ⟨1, _⟩ => ⟨S32x8192x2, .i32⟩
  | .hbm, ⟨2, _⟩ => ⟨S32x8192x1, .i32⟩
  | .hbm, ⟨3, _⟩ => ⟨S32x8192, .i32⟩
  | .hbm, ⟨4, _⟩ => ⟨S32x8192x1, .i32⟩
  | .hbm, ⟨5, _⟩ => ⟨S32x8192, .i32⟩
  | .hbm, ⟨6, _⟩ => ⟨S32, .i32⟩
  | .hbm, ⟨7, _⟩ => ⟨S32x1, .i32⟩
  | .hbm, ⟨8, _⟩ => ⟨S_, .i32⟩
  | .hbm, ⟨9, _⟩ => ⟨S32x1, .i32⟩
  | .hbm, ⟨10, _⟩ => ⟨S32x1, .i32⟩
  | .hbm, ⟨11, _⟩ => ⟨S32x8192, .i32⟩
  | .hbm, ⟨12, _⟩ => ⟨S32x8192, .i32⟩
  | .hbm, ⟨13, _⟩ => ⟨S_, .i32⟩
  | .hbm, ⟨14, _⟩ => ⟨S32x8192, .i32⟩
  | .hbm, ⟨15, _⟩ => ⟨S32x8192, .i32⟩
  | .hbm, ⟨16, _⟩ => ⟨S32x8192, .i32⟩
  | .hbm, ⟨17, _⟩ => ⟨S262144, .i32⟩
  | .hbm, ⟨18, _⟩ => ⟨S262144x64, .f32⟩
  | .hbm, ⟨19, _⟩ => ⟨S_, .f32⟩
  | .hbm, ⟨20, _⟩ => ⟨S131072x64, .f32⟩
  | .hbm, ⟨21, _⟩ => ⟨S262144x1, .i32⟩
  | .hbm, ⟨22, _⟩ => ⟨S131072x64, .f32⟩
  | .hbm, ⟨23, _⟩ => ⟨S_, .f32⟩
  | .hbm, ⟨24, _⟩ => ⟨S262144, .f32⟩
  | .hbm, ⟨25, _⟩ => ⟨S_, .f32⟩
  | .hbm, ⟨26, _⟩ => ⟨S131072, .f32⟩
  | .hbm, ⟨27, _⟩ => ⟨S262144x1, .i32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072x1, .f32⟩
  | .hbm, ⟨33, _⟩ => ⟨S131072x64, .f32⟩
  | .hbm, ⟨34, _⟩ => ⟨S131072x64, .f32⟩
  | .hbm, ⟨35, _⟩ => ⟨S32x64x64x64, .f32⟩
  | .hbm, ⟨36, _⟩ => ⟨S32x64x64x64, .f32⟩
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  slices_S32x8192x2_S32x8192x1_0_0_0 : S32x8192x2.Slices ![0, 0, 0] S32x8192x1
  shapeCasts_S32x8192x1_S32x8192 : S32x8192x1.ShapeCasts S32x8192
  slices_S32x8192x2_S32x8192x1_0_0_1 : S32x8192x2.Slices ![0, 0, 1] S32x8192x1
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8192_0_1 : S32x1.BroadcastsInDim S32x8192 (![0, 1] : Fin 2 → Fin S32x8192.rank)
  bcast_S_S32x8192 : S_.BroadcastsInDim S32x8192 (![] : Fin 0 → Fin S32x8192.rank)
  shapeCasts_S32x8192_S262144 : S32x8192.ShapeCasts S262144
  shapeCasts_S32x8192x64_S262144x64 : S32x8192x64.ShapeCasts S262144x64
  bcast_S_S131072x64 : S_.BroadcastsInDim S131072x64 (![] : Fin 0 → Fin S131072x64.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  shapeCasts_S131072x64_S32x64x64x64 : S131072x64.ShapeCasts S32x64x64x64
  transposes_S32x64x64x64_S32x64x64x64_0_3_1_2 : S32x64x64x64.Transposes [0, 3, 1, 2] S32x64x64x64
  scatter_S131072x64_S262144x1_S262144x64_1_0_0_1_wf : ScatterDims.WF S131072x64 S262144x1 S262144x64 [1] [0] [0] 1
  scatter_S131072_S262144x1_S262144_n_0_0_1_wf : ScatterDims.WF S131072 S262144x1 S262144 [] [0] [0] 1

variable [Facts₀]

def scatter_S131072x64_S262144x1_S262144x64_1_0_0_1 : ScatterDims S131072x64 S262144x1 S262144x64 where
  updateWindowDims := [1]
  insertedWindowDims := [0]
  scatterDimsToOperandDims := [0]
  indexVectorDim := 1
  wf := scatter_S131072x64_S262144x1_S262144x64_1_0_0_1_wf
def scatter_S131072_S262144x1_S262144_n_0_0_1 : ScatterDims S131072 S262144x1 S262144 where
  updateWindowDims := []
  insertedWindowDims := [0]
  scatterDimsToOperandDims := [0]
  indexVectorDim := 1
  wf := scatter_S131072_S262144x1_S262144_n_0_0_1_wf

class Facts : Prop extends Facts₀ where

variable [Facts]
-- ==== Proof.AccPieces.lean ====
/-
  What one run of the kernel body leaves behind, read back as values.

  The body keeps a [4096, 128] accumulator in a scratch buffer across the 16 grid points of a batch. At the first
  point of a batch it stores zeros, reads them back and stores "zeros + this tile's product"; at the other points it
  stores "what the point before left + this tile's product"; at the last point of a batch it then copies columns
  0 … 63 of the accumulator into the sums block and column 64 into the counts block. Each of these stores covers its
  buffer whole, so what the buffer holds afterwards is the last store's payload; a load after a covering store reads
  that payload at the loaded rectangle's indices.
-/
import proofs.«403612_j56538949484911_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.AccValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The rectangle of the accumulator's channel columns 0 … 63, as the last point's load names it. -/
abbrev chanBox : LoadRect S4096x128 := (Rect.unit (s := S4096x128) ![0, 0] S4096x64.size inb_S4096x128_S4096x64_0_0).toLoadRect
/-- The rectangle of the accumulator's count column 64. -/
abbrev countBox : LoadRect S4096x128 := (Rect.unit (s := S4096x128) ![0, 64] S4096x1.size inb_S4096x128_S4096x1_0_64).toLoadRect

/-- A middle point of a batch leaves in the accumulator the tile's update of what the point before left. -/
theorem scratch_B (c : Dev nD) (i : grid0.Coords) (arg2 : Memref sig .tc .vmem S1x512x2 .i32) (harg2 : arg2.IsWhole) (arg3 : Memref sig .tc .vmem S1x512x64 .f32) (harg3 : arg3.IsWhole) (arg4 : Memref sig .tc .vmem S1x4096x64 .f32) (harg4 : arg4.IsWhole) (arg5 : Memref sig .tc .vmem S1x4096x1 .f32) (harg5 : arg5.IsWhole) (arg6 : Memref sig .tc .vmem S4096x128 .f32) (harg6 : arg6.IsWhole) (hc0 : ¬cond0_0 i) (hc1 : ¬cond0_1 i)
    (x0 : Vec F S1x512x2 .i32) (x1 : Vec F S1x512x64 .f32) (xs0 : Vec F S4096x128 .f32) :
    sout0_B_0 c i arg2 harg2 arg3 harg3 arg4 harg4 arg5 harg5 arg6 harg6 hc0 hc1 x0 x1 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1x512x2) hz3,
    View.ld_unit_zero (S := S1x512x64) hz3, View.ld_unit_zero (S := S4096x128) hz2]

/-- The first point of a batch leaves the tile's update of the zero block it has just stored. -/
theorem scratch_A (c : Dev nD) (i : grid0.Coords) (arg2 : Memref sig .tc .vmem S1x512x2 .i32) (harg2 : arg2.IsWhole) (arg3 : Memref sig .tc .vmem S1x512x64 .f32) (harg3 : arg3.IsWhole) (arg4 : Memref sig .tc .vmem S1x4096x64 .f32) (harg4 : arg4.IsWhole) (arg5 : Memref sig .tc .vmem S1x4096x1 .f32) (harg5 : arg5.IsWhole) (arg6 : Memref sig .tc .vmem S4096x128 .f32) (harg6 : arg6.IsWhole) (hc0 : cond0_0 i) (hc1 : ¬cond0_1 i)
    (x0 : Vec F S1x512x2 .i32) (x1 : Vec F S1x512x64 .f32) :
    sout0_A_0 c i arg2 harg2 arg3 harg3 arg4 harg4 arg5 harg5 arg6 harg6 hc0 hc1 x0 x1 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S4096x128) hz2, View.readCov_unit_zero (S := S4096x128) _ hz2]
  simp only [View.readAt_eq_ld, harg2.read_unread, harg3.read_unread, View.ld_unit_zero (S := S1x512x2) hz3,
    View.ld_unit_zero (S := S1x512x64) hz3]

/-- The last point of a batch leaves the same update in the accumulator … -/
theorem scratch_C (c : Dev nD) (i : grid0.Coords) (arg2 : Memref sig .tc .vmem S1x512x2 .i32) (harg2 : arg2.IsWhole) (arg3 : Memref sig .tc .vmem S1x512x64 .f32) (harg3 : arg3.IsWhole) (arg4 : Memref sig .tc .vmem S1x4096x64 .f32) (harg4 : arg4.IsWhole) (arg5 : Memref sig .tc .vmem S1x4096x1 .f32) (harg5 : arg5.IsWhole) (arg6 : Memref sig .tc .vmem S4096x128 .f32) (harg6 : arg6.IsWhole) (hc0 : ¬cond0_0 i) (hc1 : cond0_1 i)
    (x0 : Vec F S1x512x2 .i32) (x1 : Vec F S1x512x64 .f32) (xs0 : Vec F S4096x128 .f32) :
    sout0_C_0 c i arg2 harg2 arg3 harg3 arg4 harg4 arg5 harg5 arg6 harg6 hc0 hc1 x0 x1 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S1x512x2) hz3,
    View.ld_unit_zero (S := S1x512x64) hz3, View.ld_unit_zero (S := S4096x128) hz2]

/-- … its channel columns in the sums block … -/
theorem sums_C (c : Dev nD) (i : grid0.Coords) (arg2 : Memref sig .tc .vmem S1x512x2 .i32) (harg2 : arg2.IsWhole) (arg3 : Memref sig .tc .vmem S1x512x64 .f32) (harg3 : arg3.IsWhole) (arg4 : Memref sig .tc .vmem S1x4096x64 .f32) (harg4 : arg4.IsWhole) (arg5 : Memref sig .tc .vmem S1x4096x1 .f32) (harg5 : arg5.IsWhole) (arg6 : Memref sig .tc .vmem S4096x128 .f32) (harg6 : arg6.IsWhole) (hc0 : ¬cond0_0 i) (hc1 : cond0_1 i)
    (x0 : Vec F S1x512x2 .i32) (x1 : Vec F S1x512x64 .f32) (xs0 : Vec F S4096x128 .f32) :
    out0_C_2 c i arg2 harg2 arg3 harg3 arg4 harg4 arg5 harg5 arg6 harg6 hc0 hc1 x0 x1 xs0 = k0_pay3 (fun j => k0_pay2 x0 x1 xs0 (chanBox.idx j)) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3, View.readCov_eq_canon', View.canon_unit_zero hz2]
  simp only [View.readAt_eq_ld, harg2.read_unread, harg3.read_unread, harg6.read_unread, View.ld_unit_zero (S := S1x512x2) hz3,
    View.ld_unit_zero (S := S1x512x64) hz3, View.ld_unit_zero (S := S4096x128) hz2]
  rfl

/-- … and its count column in the counts block. -/
theorem counts_C (c : Dev nD) (i : grid0.Coords) (arg2 : Memref sig .tc .vmem S1x512x2 .i32) (harg2 : arg2.IsWhole) (arg3 : Memref sig .tc .vmem S1x512x64 .f32) (harg3 : arg3.IsWhole) (arg4 : Memref sig .tc .vmem S1x4096x64 .f32) (harg4 : arg4.IsWhole) (arg5 : Memref sig .tc .vmem S1x4096x1 .f32) (harg5 : arg5.IsWhole) (arg6 : Memref sig .tc .vmem S4096x128 .f32) (harg6 : arg6.IsWhole) (hc0 : ¬cond0_0 i) (hc1 : cond0_1 i)
    (x0 : Vec F S1x512x2 .i32) (x1 : Vec F S1x512x64 .f32) (xs0 : Vec F S4096x128 .f32) :
    out0_C_3 c i arg2 harg2 arg3 harg3 arg4 harg4 arg5 harg5 arg6 harg6 hc0 hc1 x0 x1 xs0 = k0_pay4 (fun j => k0_pay2 x0 x1 xs0 (countBox.idx j)) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3, View.readCov_eq_canon', View.canon_unit_zero hz2]
  simp only [View.readAt_eq_ld, harg2.read_unread, harg3.read_unread, harg6.read_unread, View.ld_unit_zero (S := S1x512x2) hz3,
    View.ld_unit_zero (S := S1x512x64) hz3, View.ld_unit_zero (S := S4096x128) hz2]
  rfl

end Cert.KernelIdeal.AccValue

end
-- ==== Proof.Spec.lean ====
/-
  The mathematics of the certificate, stated once, over literal shapes and with no program in sight.

  Node n of batch b carries a feature row x[b, n, :] and a key pair (row, col) = kl[b, n, :]. Its CELL WORD is the
  32-bit word row * 64 + col. The node LANDS in cell hw (0 ≤ hw < 4096) of its batch when its cell word is the word hw.
  The cell's sum is the sum of the feature rows of the nodes that land in it, the cell's count the number of those
  nodes (a sum of ones), and the grid average at (b, c, h, w) is the quotient of the sum of channel c of cell 64 h + w
  by the larger of the count and the literal one: an empty cell keeps a zero sum over one.

  Also here: the constants the two programs spell (the one of both float formats, the 16-bit zero) and the range of
  the keys under which the two programs agree.
-/
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Fin

noncomputable section

open scoped BigOperators

namespace Cert.GridCells

open Idealize.ShloMosaic Idealize.ShloMosaic.ValueIdx

abbrev SKeys : Shape := ⟨3, ![32, 8192, 2]⟩
abbrev SFeat : Shape := ⟨3, ![32, 8192, 64]⟩
abbrev SGrid : Shape := ⟨4, ![32, 64, 64, 64]⟩

/-- Every key, read signed, is a row or column number of the 64 × 64 grid. -/
def KeysInRange (kl : IVec SKeys 32) : Prop := ∀ i : SKeys.Idx, 0 ≤ (kl i).toInt ∧ (kl i).toInt < 64

/-- The cell word of node n of batch b: row * 64 + col, in 32-bit arithmetic. -/
def cellWord (kl : IVec SKeys 32) (b : Fin 32) (n : Fin 8192) : BitVec 32 :=
  IntOp.addi (IntOp.muli (kl (ix3 b n 0)) 64#32) (kl (ix3 b n 1))

/-- Node n of batch b lands in cell hw. -/
def Lands (kl : IVec SKeys 32) (b : Fin 32) (hw : Fin 4096) (n : Fin 8192) : Prop :=
  cellWord kl b n = BitVec.ofNat 32 hw.val

instance (kl : IVec SKeys 32) (b : Fin 32) (hw : Fin 4096) : DecidablePred (Lands kl b hw) :=
  fun _ => inferInstanceAs (Decidable (_ = _))

/-- Channel c of the sum of the feature rows that land in cell hw of batch b. -/
def cellSum (x : FVec Ideal SFeat .f32) (kl : IVec SKeys 32) (b : Fin 32) (hw : Fin 4096) (c : Fin 64) : EReal :=
  ∑ n ∈ Finset.univ.filter (Lands kl b hw), x (ix3 b n c)

/-- The number of nodes that land in cell hw of batch b, as a sum of ones. -/
def cellCount (kl : IVec SKeys 32) (b : Fin 32) (hw : Fin 4096) : EReal :=
  ∑ _n ∈ Finset.univ.filter (Lands kl b hw), (1 : EReal)

/-- Cell number 64 h + w of grid position (h, w). -/
def cellOf (h w : Fin 64) : Fin 4096 := ⟨h.val * 64 + w.val, by have := h.isLt; have := w.isLt; omega⟩

/-- THE RESULT both programs compute: at (b, c, h, w) the cell's channel sum over max(count, 1.0). -/
def gridAvg (x : FVec Ideal SFeat .f32) (kl : IVec SKeys 32) : FVec Ideal SGrid .f32 :=
  fun i => Ideal.div (cellSum x kl (i 0) (cellOf (i 2) (i 3)) (i 1))
    (max (cellCount kl (i 0) (cellOf (i 2) (i 3))) (Ideal.ofBits .f32 0x3F800000#32))

/-! ## The constants -/

theorem ofBits_f32_one : Ideal.ofBits .f32 0x3F800000#32 = 1 := by
  simp [Ideal.ofBits, Ideal.ieee, -EReal.coe_mul]; norm_num

theorem ofBits_bf16_one : Ideal.ofBits .bf16 0x3F80#16 = 1 := by
  simp [Ideal.ofBits, Ideal.ieee, -EReal.coe_mul]; norm_num

theorem ofBits_bf16_zero : Ideal.ofBits .bf16 0x0000#16 = 0 := by
  simp [Ideal.ofBits, Ideal.ieee]

end Cert.GridCells

end
-- ==== Proof.TileValue.lean ====
/-
  One grid point's arithmetic, read at an index. The body builds, from the point's block of 512 key pairs, the
  one-hot matrix onehot[hw, k] = (hw = cell word of position k), widens the point's block of feature rows by a
  column of ones (column 64) and zero columns, multiplies, and adds the product to the accumulator it loaded. So
  entry (hw, c) of the new accumulator, for a channel c < 64, is the old entry plus the sum of channel c over the
  positions of the tile whose cell word is hw; entry (hw, 64) is the old entry plus the number of those positions.
-/
import proofs.«403612_j56538949484911_1_alg».proof.Proof.Gen.KernelIdeal.Skeleton
import proofs.«403612_j56538949484911_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.TileValue

open Idealize.ShloMosaic Idealize.ShloMosaic.ValueIdx Cert.KernelIdeal Cert.KernelIdeal.Gen Cert.GridCells

/-- The cell word of position k of a block of key pairs. -/
def blockWord (x0 : IVec S1x512x2 32) (k : Fin 512) : BitVec 32 :=
  IntOp.addi (IntOp.muli (x0 (ix3 0 k 0)) 64#32) (x0 (ix3 0 k 1))

/-! ## The product's operand indices -/

theorem lhs_0 (j : S4096x128.Idx) (k : dot_S4096x512_S512x128_S4096x128_1_0_0_1_n_n.contr.Idx) :
    (dot_S4096x512_S512x128_S4096x128_1_0_0_1_n_n.lhsIdx j k 0 : ℕ) = j 0 := by
  simp [DotDims.lhsIdx, dot_S4096x512_S512x128_S4096x128_1_0_0_1_n_n]; rfl
theorem lhs_1 (j : S4096x128.Idx) (k : dot_S4096x512_S512x128_S4096x128_1_0_0_1_n_n.contr.Idx) :
    (dot_S4096x512_S512x128_S4096x128_1_0_0_1_n_n.lhsIdx j k 1 : ℕ) = k ⟨0, by decide⟩ := by
  simp [DotDims.lhsIdx, dot_S4096x512_S512x128_S4096x128_1_0_0_1_n_n]; rfl
theorem rhs_0 (j : S4096x128.Idx) (k : dot_S4096x512_S512x128_S4096x128_1_0_0_1_n_n.contr.Idx) :
    (dot_S4096x512_S512x128_S4096x128_1_0_0_1_n_n.rhsIdx j k 0 : ℕ) = k ⟨0, by decide⟩ := by
  simp [DotDims.rhsIdx, dot_S4096x512_S512x128_S4096x128_1_0_0_1_n_n]; rfl
theorem rhs_1 (j : S4096x128.Idx) (k : dot_S4096x512_S512x128_S4096x128_1_0_0_1_n_n.contr.Idx) :
    (dot_S4096x512_S512x128_S4096x128_1_0_0_1_n_n.rhsIdx j k 1 : ℕ) = j 1 := by
  simp [DotDims.rhsIdx, dot_S4096x512_S512x128_S4096x128_1_0_0_1_n_n]; rfl

/-- The product into the zero accumulator, read at (hw, j): the sum over the 512 positions. -/
theorem matmul_read (A : FVec Ideal S4096x512 .bf16) (B : FVec Ideal S512x128 .bf16) (hw : Fin 4096) (j : Fin 128) :
    matmul dot_S4096x512_S512x128_S4096x128_1_0_0_1_n_n none A B (constant (F := Ideal) S4096x128 .f32 0x00000000#32) (ix2 hw j)
      = ∑ k : Fin 512, A (ix2 hw k) * B (ix2 k j) := by
  refine (Ideal.matmul_constant_zero_apply _ none A B (ix2 hw j)).trans ?_
  rw [← Equiv.sum_comp (contrEquiv1 dot_S4096x512_S512x128_S4096x128_1_0_0_1_n_n 512 rfl rfl).symm]
  refine Finset.sum_congr rfl fun c _ => ?_
  have c2 := contrEquiv1_symm_val dot_S4096x512_S512x128_S4096x128_1_0_0_1_n_n 512 rfl rfl c
  have l2 : dot_S4096x512_S512x128_S4096x128_1_0_0_1_n_n.lhsIdx (ix2 hw j)
      ((contrEquiv1 dot_S4096x512_S512x128_S4096x128_1_0_0_1_n_n 512 rfl rfl).symm c) = ix2 hw c := by
    apply Shape.idx_ext₂
    · exact lhs_0 _ _
    · exact (lhs_1 _ _).trans c2
  have r2 : dot_S4096x512_S512x128_S4096x128_1_0_0_1_n_n.rhsIdx (ix2 hw j)
      ((contrEquiv1 dot_S4096x512_S512x128_S4096x128_1_0_0_1_n_n 512 rfl rfl).symm c) = ix2 c j := by
    apply Shape.idx_ext₂
    · exact (rhs_0 _ _).trans c2
    · exact rhs_1 _ _
  rw [l2, r2]

/-! ## The one-hot matrix -/

/-- A column [a, 1] viewed as a vector [a] reads, at i, the column's entry (i, 0). -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The words the body compares the row number with: position k's cell word. -/
def seg (x0 : IVec S1x512x2 32) : IVec S512 32 :=
  addi (muli (shapeCast S512 (extractStridedSlice S512x1 ![0, 0] (shapeCast S512x2 x0 shapeCasts_S1x512x2_S512x2)
      slices_S512x2_o0_0_S512x1) shapeCasts_S512x1_S512) (broadcast S512 64#32))
    (shapeCast S512 (extractStridedSlice S512x1 ![0, 1] (shapeCast S512x2 x0 shapeCasts_S1x512x2_S512x2)
      slices_S512x2_o0_1_S512x1) shapeCasts_S512x1_S512)

theorem seg_apply (x0 : IVec S1x512x2 32) (k : Fin 512) : seg x0 (ix1 k) = blockWord x0 k := by
  have e0 : shapeCast S512 (extractStridedSlice S512x1 ![0, 0] (shapeCast S512x2 x0 shapeCasts_S1x512x2_S512x2)
      slices_S512x2_o0_0_S512x1) shapeCasts_S512x1_S512 (ix1 k) = x0 (ix3 0 k 0) := by
    refine (shapeCast_a1_a_apply _ _ k).trans ?_
    refine (slice2_axis1_apply 0 _ _ k (0 : Fin 1) (0 : Fin 2) rfl).trans ?_
    exact shapeCast_1ab_ab_apply x0 _ k 0
  have e1 : shapeCast S512 (extractStridedSlice S512x1 ![0, 1] (shapeCast S512x2 x0 shapeCasts_S1x512x2_S512x2)
      slices_S512x2_o0_1_S512x1) shapeCasts_S512x1_S512 (ix1 k) = x0 (ix3 0 k 1) := by
    refine (shapeCast_a1_a_apply _ _ k).trans ?_
    refine (slice2_axis1_apply 1 _ _ k (0 : Fin 1) (1 : Fin 2) rfl).trans ?_
    exact shapeCast_1ab_ab_apply x0 _ k 1
  show IntOp.addi (IntOp.muli _ 64#32) _ = _
  rw [e0, e1]
  rfl

/-- The one-hot matrix: entry (hw, k) is one when position k's cell word is the word hw, else zero. -/
def onehot (x0 : IVec S1x512x2 32) : FVec Ideal S4096x512 .bf16 :=
  truncf .bf16 (sitofp .f32 (extui 32 (cmpi .eq (iota .tc S4096x512 32 [0] iota_S4096x512_d0_w32)
    (broadcastTo S4096x512 (shapeCast S1x512 (seg x0) shapeCasts_S512_S1x512) broadcasts_S1x512_S4096x512)) natLt_1_32))
    bitsLt_bf16_f32

theorem onehot_apply (x0 : IVec S1x512x2 32) (hw : Fin 4096) (k : Fin 512) :
    onehot x0 (ix2 hw k) = if blockWord x0 k = BitVec.ofNat 32 hw.val then (1 : EReal) else 0 := by
  have ei : iota .tc S4096x512 32 [0] iota_S4096x512_d0_w32 (ix2 hw k) = BitVec.ofNat 32 hw.val :=
    iota_single_apply .tc S4096x512 32 0 iota_S4096x512_d0_w32 (ix2 hw k)
  have es : broadcastTo S4096x512 (shapeCast S1x512 (seg x0) shapeCasts_S512_S1x512) broadcasts_S1x512_S4096x512 (ix2 hw k)
      = blockWord x0 k := by
    refine (broadcastTo_1b_ab_apply _ _ hw k).trans ?_
    refine (shapeCast_a_1a_apply _ _ (0 : Fin 1) k).trans ?_
    exact seg_apply x0 k
  show (((((IntOp.cmpi .eq (iota .tc S4096x512 32 [0] iota_S4096x512_d0_w32 (ix2 hw k))
    (broadcastTo S4096x512 (shapeCast S1x512 (seg x0) shapeCasts_S512_S1x512) broadcasts_S1x512_S4096x512 (ix2 hw k))).setWidth 32).toInt : ℝ) : EReal)) = _
  rw [ei, es]
  by_cases h : blockWord x0 k = BitVec.ofNat 32 hw.val
  · rw [if_pos h, IntOp.cmpi_eq.2 h.symm]
    norm_num
  · have hc : IntOp.cmpi .eq (BitVec.ofNat 32 hw.val) (blockWord x0 k) = 0#1 :=
      eq_zero_of_ne_one fun e => h (IntOp.cmpi_eq.1 e).symm
    rw [if_neg h, hc]
    norm_num

/-! ## The widened feature block -/

/-- The three pieces of the widened block: the feature rows, a column of ones, 63 zero columns. -/
def augPieces (x1 : FVec Ideal S1x512x64 .f32) : List ((s : Shape) × (s.Idx → Ideal .bf16)) :=
  [⟨S512x64, truncf .bf16 (shapeCast S512x64 x1 shapeCasts_S1x512x64_S512x64) bitsLt_bf16_f32⟩,
   ⟨S512x1, broadcast S512x1 (Scalar.ofBits (F := Ideal) .bf16 0x3F80#16)⟩,
   ⟨S512x63, broadcast S512x63 (Scalar.ofBits (F := Ideal) .bf16 0x0000#16)⟩]

/-- The feature rows with a column of ones (column 64) and 63 zero columns behind them. -/
def aug (x1 : FVec Ideal S1x512x64 .f32) : FVec Ideal S512x128 .bf16 :=
  concatenate S512x128 1 (augPieces x1) concatenates_S512x64_S512x1_S512x63_S512x128_d1

/-- A channel column of the widened block is the feature block's. -/
theorem aug_channel (x1 : FVec Ideal S1x512x64 .f32) (k : Fin 512) (c : Fin 64) :
    aug x1 (ix2 k ⟨c.val, by have := c.isLt; omega⟩) = x1 (ix3 0 k c) := by
  refine (concatenate_apply_piece (t := S512x128) 1 (augPieces x1) concatenates_S512x64_S512x1_S512x63_S512x128_d1
    (ix2 k ⟨c.val, by have := c.isLt; omega⟩) 0 (Nat.zero_lt_succ _) S512x64 _ rfl rfl 0 rfl (ix2 k c) ?_ ?_).trans ?_
  · intro b hb
    match b with
    | ⟨0, _⟩ => rfl
    | ⟨1, _⟩ => exact absurd rfl hb
  · show 0 + c.val = c.val
    omega
  · exact shapeCast_1ab_ab_apply x1 _ k c

/-- Column 64 of the widened block is one. -/
theorem aug_count (x1 : FVec Ideal S1x512x64 .f32) (k : Fin 512) :
    aug x1 (ix2 k ⟨64, by omega⟩) = 1 := by
  refine (concatenate_apply_piece (t := S512x128) 1 (augPieces x1) concatenates_S512x64_S512x1_S512x63_S512x128_d1
    (ix2 k ⟨64, by omega⟩) 1 (Nat.succ_lt_succ (Nat.zero_lt_succ _)) S512x1 _ rfl rfl 64 rfl (ix2 k (0 : Fin 1)) ?_ ?_).trans ?_
  · intro b hb
    match b with
    | ⟨0, _⟩ => rfl
    | ⟨1, _⟩ => exact absurd rfl hb
  · rfl
  · exact ofBits_bf16_one

/-! ## The new accumulator -/

/-- The new accumulator is the old one plus the product of the one-hot matrix with the widened block. -/
theorem pay2_eq (x0 : IVec S1x512x2 32) (x1 : FVec Ideal S1x512x64 .f32) (xs : FVec Ideal S4096x128 .f32) :
    k0_pay2 (F := Ideal) x0 x1 xs
      = addf xs (matmul dot_S4096x512_S512x128_S4096x128_1_0_0_1_n_n none (onehot x0) (aug x1)
          (constant (F := Ideal) S4096x128 .f32 0x00000000#32)) := by
  unfold k0_pay2
  exact shapeCast_self _ _

/-- Read at (hw, j): the old entry plus the sum over the 512 positions of one-hot entry times widened entry. -/
theorem pay2_read (x0 : IVec S1x512x2 32) (x1 : FVec Ideal S1x512x64 .f32) (xs : FVec Ideal S4096x128 .f32)
    (hw : Fin 4096) (j : Fin 128) :
    k0_pay2 (F := Ideal) x0 x1 xs (ix2 hw j) = xs (ix2 hw j) + ∑ k : Fin 512, onehot x0 (ix2 hw k) * aug x1 (ix2 k j) := by
  rw [pay2_eq]
  exact congrArg (xs (ix2 hw j) + ·) (matmul_read (onehot x0) (aug x1) hw j)

/-- A sum weighted by row hw of the one-hot matrix is the sum over the positions whose cell word is hw. -/
theorem sum_onehot (x0 : IVec S1x512x2 32) (hw : Fin 4096) (f : Fin 512 → EReal) :
    ∑ k : Fin 512, onehot x0 (ix2 hw k) * f k
      = ∑ k ∈ Finset.univ.filter (fun k : Fin 512 => blockWord x0 k = BitVec.ofNat 32 hw.val), f k := by
  rw [Finset.sum_filter]
  refine Finset.sum_congr rfl fun k _ => ?_
  rw [onehot_apply]
  by_cases h : blockWord x0 k = BitVec.ofNat 32 hw.val
  · rw [if_pos h, if_pos h, one_mul]
  · rw [if_neg h, if_neg h, zero_mul]

/-- The accumulator's new entry at a channel column. -/
theorem pay2_channel (x0 : IVec S1x512x2 32) (x1 : FVec Ideal S1x512x64 .f32) (xs : FVec Ideal S4096x128 .f32)
    (hw : Fin 4096) (c : Fin 64) :
    k0_pay2 (F := Ideal) x0 x1 xs (ix2 hw ⟨c.val, by have := c.isLt; omega⟩)
      = xs (ix2 hw ⟨c.val, by have := c.isLt; omega⟩)
        + ∑ k ∈ Finset.univ.filter (fun k : Fin 512 => blockWord x0 k = BitVec.ofNat 32 hw.val), x1 (ix3 0 k c) := by
  rw [pay2_read, sum_onehot x0 hw fun k => aug x1 (ix2 k ⟨c.val, by have := c.isLt; omega⟩)]
  exact congrArg (xs (ix2 hw ⟨c.val, by have := c.isLt; omega⟩) + ·) (Finset.sum_congr rfl fun k _ => aug_channel x1 k c)

/-- The accumulator's new entry at the count column 64. -/
theorem pay2_count (x0 : IVec S1x512x2 32) (x1 : FVec Ideal S1x512x64 .f32) (xs : FVec Ideal S4096x128 .f32)
    (hw : Fin 4096) :
    k0_pay2 (F := Ideal) x0 x1 xs (ix2 hw ⟨64, by omega⟩)
      = xs (ix2 hw ⟨64, by omega⟩)
        + ∑ _k ∈ Finset.univ.filter (fun k : Fin 512 => blockWord x0 k = BitVec.ofNat 32 hw.val), (1 : EReal) := by
  rw [pay2_read, sum_onehot x0 hw fun k => aug x1 (ix2 k ⟨64, by omega⟩)]
  exact congrArg (xs (ix2 hw ⟨64, by omega⟩) + ·) (Finset.sum_congr rfl fun k _ => aug_count x1 k)

end Cert.KernelIdeal.TileValue

end
-- ==== Proof.TileSums.lean ====
/-
  Sums over the nodes of one batch, cut at tile boundaries: the 8192 nodes come in 16 tiles of 512, and a sum over
  the nodes below the boundary 512 (k + 1) is the sum below 512 k plus the sum over tile k's 512 positions.
-/
import proofs.«403612_j56538949484911_1_alg».proof.Proof.Spec

noncomputable section

open scoped BigOperators

namespace Cert.GridCells

open Idealize.ShloMosaic Idealize.ShloMosaic.ValueIdx

/-! ## A sum over the nodes below a tile boundary -/

/-- The nodes below the boundary 512 (k + 1) that satisfy p are those below 512 k and those of tile k: the sum grows
    by the tile's own sum, taken over the tile's 512 positions. -/
theorem sum_below_succ (p : Fin 8192 → Prop) [DecidablePred p] (f : Fin 8192 → EReal) (k : ℕ) (hk : k < 16) :
    ∑ n ∈ Finset.univ.filter (fun n : Fin 8192 => n.val < 512 * (k + 1) ∧ p n), f n
      = ∑ n ∈ Finset.univ.filter (fun n : Fin 8192 => n.val < 512 * k ∧ p n), f n
        + ∑ j ∈ Finset.univ.filter (fun j : Fin 512 => p ⟨512 * k + j.val, by have := j.isLt; omega⟩),
            f ⟨512 * k + j.val, by have := j.isLt; omega⟩ := by
  classical
  -- the nodes below 512 (k + 1): those below 512 k, or those of tile k
  have hsplit : Finset.univ.filter (fun n : Fin 8192 => n.val < 512 * (k + 1) ∧ p n)
      = Finset.univ.filter (fun n : Fin 8192 => n.val < 512 * k ∧ p n)
        ∪ Finset.univ.filter (fun n : Fin 8192 => (512 * k ≤ n.val ∧ n.val < 512 * (k + 1)) ∧ p n) := by
    ext n
    simp only [Finset.mem_union, Finset.mem_filter, Finset.mem_univ, true_and]
    constructor
    · rintro ⟨hn, hp⟩
      by_cases hlt : n.val < 512 * k
      · exact Or.inl ⟨hlt, hp⟩
      · exact Or.inr ⟨⟨by omega, hn⟩, hp⟩
    · rintro (⟨hn, hp⟩ | ⟨⟨_, hn⟩, hp⟩)
      · exact ⟨by omega, hp⟩
      · exact ⟨hn, hp⟩
  have hdisj : Disjoint (Finset.univ.filter (fun n : Fin 8192 => n.val < 512 * k ∧ p n))
      (Finset.univ.filter (fun n : Fin 8192 => (512 * k ≤ n.val ∧ n.val < 512 * (k + 1)) ∧ p n)) := by
    rw [Finset.disjoint_left]
    intro n h1 h2
    simp only [Finset.mem_filter, Finset.mem_univ, true_and] at h1 h2
    omega
  rw [hsplit, Finset.sum_union hdisj]
  congr 1
  -- tile k's nodes are its 512 positions j, at node 512 k + j
  refine Finset.sum_bij' (fun n hn => (⟨n.val - 512 * k, by
        have := (Finset.mem_filter.1 hn).2.1; omega⟩ : Fin 512))
      (fun j _ => (⟨512 * k + j.val, by have := j.isLt; omega⟩ : Fin 8192)) ?_ ?_ ?_ ?_ ?_
  · intro n hn
    have hn' := (Finset.mem_filter.1 hn).2
    simp only [Finset.mem_filter, Finset.mem_univ, true_and]
    have e : (⟨512 * k + (n.val - 512 * k), by have := hn'.1; omega⟩ : Fin 8192) = n := Fin.ext (by
      show 512 * k + (n.val - 512 * k) = n.val
      have := hn'.1; omega)
    rw [e]; exact hn'.2
  · intro j hj
    have hj' := (Finset.mem_filter.1 hj).2
    simp only [Finset.mem_filter, Finset.mem_univ, true_and]
    have := j.isLt
    exact ⟨⟨by omega, by omega⟩, hj'⟩
  · intro n hn
    have hn' := (Finset.mem_filter.1 hn).2
    exact Fin.ext (by show 512 * k + (n.val - 512 * k) = n.val; have := hn'.1; omega)
  · intro j hj
    exact Fin.ext (by show 512 * k + j.val - 512 * k = j.val; omega)
  · intro n hn
    have hn' := (Finset.mem_filter.1 hn).2
    exact congrArg f (Fin.ext (by show n.val = 512 * k + (n.val - 512 * k); have := hn'.1; omega))

/-- Below the boundary 0 there is no node. -/
theorem sum_below_zero (p : Fin 8192 → Prop) [DecidablePred p] (f : Fin 8192 → EReal) :
    ∑ n ∈ Finset.univ.filter (fun n : Fin 8192 => n.val < 512 * 0 ∧ p n), f n = 0 := by
  refine Finset.sum_eq_zero fun n hn => ?_
  have := (Finset.mem_filter.1 hn).2.1
  omega

/-- Below the boundary 512 · 16 is every node. -/
theorem sum_below_all (p : Fin 8192 → Prop) [DecidablePred p] (f : Fin 8192 → EReal) :
    ∑ n ∈ Finset.univ.filter (fun n : Fin 8192 => n.val < 512 * 16 ∧ p n), f n
      = ∑ n ∈ Finset.univ.filter p, f n := by
  refine Finset.sum_congr (Finset.filter_congr fun n _ => ?_) fun _ _ => rfl
  have := n.isLt
  exact ⟨fun h => h.2, fun h => ⟨by omega, h⟩⟩

end Cert.GridCells

end
-- ==== Proof.AccStep.lean ====
/-
  One grid point's step on the accumulator, stated over plain arrays. Let kl and ft be the key and feature arrays,
  and let x0, x1 be blocks that hold nodes 512 k … 512 k + 511 of batch b. If an accumulator entry held the sum (or
  the count) over the nodes of batch b below 512 k that land in cell hw, the body's update of it holds the sum (the
  count) over the nodes below 512 (k + 1).
-/
import proofs.«403612_j56538949484911_1_alg».proof.Proof.TileValue
import proofs.«403612_j56538949484911_1_alg».proof.Proof.TileSums

noncomputable section

open scoped BigOperators
open Idealize.ShloMosaic Idealize.ShloMosaic.ValueIdx

namespace Cert.KernelIdeal.AccStep

open Cert.KernelIdeal Cert.KernelIdeal.Gen Cert.GridCells Cert.KernelIdeal.TileValue

/-- Channel c of the nodes of batch b below the boundary 512 K that land in cell hw, summed; and their number. -/
def partialSum (kl : IVec SKeys 32) (ft : FVec Ideal SFeat .f32) (b : Fin 32) (hw : Fin 4096) (cc : Fin 64) (K : ℕ) : EReal :=
  ∑ nn ∈ Finset.univ.filter (fun nn : Fin 8192 => nn.val < 512 * K ∧ Lands kl b hw nn), ft (ix3 b nn cc)

def partialCount (kl : IVec SKeys 32) (b : Fin 32) (hw : Fin 4096) (K : ℕ) : EReal :=
  ∑ _nn ∈ Finset.univ.filter (fun nn : Fin 8192 => nn.val < 512 * K ∧ Lands kl b hw nn), (1 : EReal)

theorem partialSum_zero (kl : IVec SKeys 32) (ft : FVec Ideal SFeat .f32) (b : Fin 32) (hw : Fin 4096) (cc : Fin 64) :
    partialSum kl ft b hw cc 0 = 0 := sum_below_zero _ _

theorem partialCount_zero (kl : IVec SKeys 32) (b : Fin 32) (hw : Fin 4096) : partialCount kl b hw 0 = 0 :=
  sum_below_zero _ _

/-- Below the last boundary they are the cell's sum and count. -/
theorem partialSum_all (kl : IVec SKeys 32) (ft : FVec Ideal SFeat .f32) (b : Fin 32) (hw : Fin 4096) (cc : Fin 64) :
    partialSum kl ft b hw cc 16 = cellSum ft kl b hw cc := sum_below_all _ _

theorem partialCount_all (kl : IVec SKeys 32) (b : Fin 32) (hw : Fin 4096) : partialCount kl b hw 16 = cellCount kl b hw :=
  sum_below_all _ _

/-- The block's cell word at position j is the node's. -/
theorem blockWord_eq (kl : IVec SKeys 32) (x0 : IVec S1x512x2 32) (b : Fin 32) (k : ℕ) (hk : k < 16)
    (h0 : ∀ (j : Fin 512) (a : Fin 2), x0 (ix3 0 j a) = kl (ix3 b ⟨512 * k + j.val, by have := j.isLt; omega⟩ a)) (j : Fin 512) :
    blockWord x0 j = cellWord kl b ⟨512 * k + j.val, by have := j.isLt; omega⟩ := by
  unfold blockWord cellWord
  rw [h0 j 0, h0 j 1]

/-- One point's update of a channel entry. -/
theorem step_channel (kl : IVec SKeys 32) (ft : FVec Ideal SFeat .f32) (x0 : IVec S1x512x2 32) (x1 : FVec Ideal S1x512x64 .f32)
    (b : Fin 32) (k : ℕ) (hk : k < 16)
    (h0 : ∀ (j : Fin 512) (a : Fin 2), x0 (ix3 0 j a) = kl (ix3 b ⟨512 * k + j.val, by have := j.isLt; omega⟩ a))
    (h1 : ∀ (j : Fin 512) (cc : Fin 64), x1 (ix3 0 j cc) = ft (ix3 b ⟨512 * k + j.val, by have := j.isLt; omega⟩ cc))
    (hw : Fin 4096) (cc : Fin 64) (prev : FVec Ideal S4096x128 .f32)
    (hprev : prev (ix2 hw ⟨cc.val, by have := cc.isLt; omega⟩) = partialSum kl ft b hw cc k) :
    k0_pay2 (F := Ideal) x0 x1 prev (ix2 hw ⟨cc.val, by have := cc.isLt; omega⟩) = partialSum kl ft b hw cc (k + 1) := by
  refine (pay2_channel x0 x1 prev hw cc).trans ?_
  rw [hprev]
  unfold partialSum
  rw [sum_below_succ (Lands kl b hw) (fun nn => ft (ix3 b nn cc)) k hk]
  congr 1
  refine Finset.sum_congr (Finset.filter_congr fun j _ => ?_) fun j _ => ?_
  · unfold Lands
    rw [blockWord_eq kl x0 b k hk h0 j]
  · exact h1 j cc

/-- One point's update of the count entry. -/
theorem step_count (kl : IVec SKeys 32) (x0 : IVec S1x512x2 32) (x1 : FVec Ideal S1x512x64 .f32)
    (b : Fin 32) (k : ℕ) (hk : k < 16)
    (h0 : ∀ (j : Fin 512) (a : Fin 2), x0 (ix3 0 j a) = kl (ix3 b ⟨512 * k + j.val, by have := j.isLt; omega⟩ a))
    (hw : Fin 4096) (prev : FVec Ideal S4096x128 .f32)
    (hprev : prev (ix2 hw ⟨64, by omega⟩) = partialCount kl b hw k) :
    k0_pay2 (F := Ideal) x0 x1 prev (ix2 hw ⟨64, by omega⟩) = partialCount kl b hw (k + 1) := by
  refine (pay2_count x0 x1 prev hw).trans ?_
  rw [hprev]
  unfold partialCount
  rw [sum_below_succ (Lands kl b hw) (fun _ => (1 : EReal)) k hk]
  congr 1
  refine Finset.sum_congr (Finset.filter_congr fun j _ => ?_) fun j _ => rfl
  unfold Lands
  rw [blockWord_eq kl x0 b k hk h0 j]

end Cert.KernelIdeal.AccStep

end
-- ==== Proof.AccInvariant.lean ====
/-
  The accumulator after every grid point. Point t = 16 b + k works on tile k of batch b: nodes 512 k … 512 k + 511.
  After it, entry (hw, c) of the accumulator is the sum of channel c over the nodes of batch b BELOW 512 (k + 1) that
  land in cell hw, and entry (hw, 64) is the number of those nodes: the first point of a batch starts from the zero
  block, every other point adds its tile to what the point before left — an induction over the points.
-/
import proofs.«403612_j56538949484911_1_alg».proof.Proof.AccPieces
import proofs.«403612_j56538949484911_1_alg».proof.Proof.AccStep

noncomputable section

open scoped BigOperators
open Idealize.ShloMosaic Idealize.ShloMosaic.TcCoe Idealize.SL.Sem Idealize.ShloMosaic.ValueIdx
open Idealize.ShloMosaic.Pipeline (Dat)

namespace Cert.KernelIdeal.AccValue

open Cert.KernelIdeal Cert.KernelIdeal.Gen Cert.GridCells Cert.KernelIdeal.AccStep

variable (m : (ℓ : Loc nD τ sig) → Buf (Elt Ideal) ℓ)

/-- The two argument arrays as the call finds them, and a point's blocks of them, at their literal types. -/
abbrev keys (c : Dev nD) : IVec S32x8192x2 32 := V m c main_arg1
abbrev feats (c : Dev nD) : FVec Ideal S32x8192x64 .f32 := V m c main_arg0
abbrev kblk (c : Dev nD) (t : Fin cfg0.N) : IVec S1x512x2 32 := iblk m c 0 t
abbrev fblk (c : Dev nD) (t : Fin cfg0.N) : FVec Ideal S1x512x64 .f32 := iblk m c 1 t

/-- Point t fetches block (t / 16, t % 16, 0) of both arguments. -/
theorem idx_keys : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem idx_feats : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)

/-- Position j of the key block of point 16 b + k is node 512 k + j of batch b. -/
theorem kblk_apply (c : Dev nD) (t : Fin cfg0.N) (b : Fin 32) (k : ℕ) (hk : k < 16) (ht : t.val = 16 * b.val + k) (j : Fin 512) (a : Fin 2) :
    kblk m c t (ix3 0 j a) = keys m c (ix3 b ⟨512 * k + j.val, by have := j.isLt; omega⟩ a) := by
  unfold kblk iblk
  rw [View.read_apply]
  show V m c main_arg1 _ = V m c main_arg1 _
  congr 1
  funext d
  apply Fin.ext
  obtain ⟨i0, i1, i2⟩ := idx_keys t
  match d with
  | ⟨0, _⟩ => show win0_0.index t 0 * 1 + 1 * 0 = b.val; rw [i0]; omega
  | ⟨1, _⟩ => show win0_0.index t 1 * 512 + 1 * j.val = 512 * k + j.val; rw [i1]; omega
  | ⟨2, _⟩ => show win0_0.index t 2 * 2 + 1 * a.val = a.val; rw [i2]; omega

/-- The same for the feature block. -/
theorem fblk_apply (c : Dev nD) (t : Fin cfg0.N) (b : Fin 32) (k : ℕ) (hk : k < 16) (ht : t.val = 16 * b.val + k) (j : Fin 512) (cc : Fin 64) :
    fblk m c t (ix3 0 j cc) = feats m c (ix3 b ⟨512 * k + j.val, by have := j.isLt; omega⟩ cc) := by
  unfold fblk iblk
  rw [View.read_apply]
  show V m c main_arg0 _ = V m c main_arg0 _
  congr 1
  funext d
  apply Fin.ext
  obtain ⟨i0, i1, i2⟩ := idx_feats t
  match d with
  | ⟨0, _⟩ => show win0_1.index t 0 * 1 + 1 * 0 = b.val; rw [i0]; omega
  | ⟨1, _⟩ => show win0_1.index t 1 * 512 + 1 * j.val = 512 * k + j.val; rw [i1]; omega
  | ⟨2, _⟩ => show win0_1.index t 2 * 64 + 1 * cc.val = cc.val; rw [i2]; omega

/-- The zero block the first point of a batch stores reads zero everywhere. -/
theorem pay1_apply (y : S4096x128.Idx) : k0_pay1 (F := Ideal) y = 0 := by
  unfold k0_pay1
  simp only [shapeCast_self]
  exact Ideal.ofBits_zero_f32

/-- What a point that starts from the accumulator `prev` leaves, given what `prev` held. -/
theorem after_point (c : Dev nD) (t : Fin cfg0.N) (b : Fin 32) (k : ℕ) (hk : k < 16) (ht : t.val = 16 * b.val + k) (hw : Fin 4096)
    (prev : FVec Ideal S4096x128 .f32)
    (hs : ∀ cc : Fin 64, prev (ix2 hw ⟨cc.val, by have := cc.isLt; omega⟩) = partialSum (keys m c) (feats m c) b hw cc k)
    (hc : prev (ix2 hw ⟨64, by omega⟩) = partialCount (keys m c) b hw k) :
    (∀ cc : Fin 64, k0_pay2 (F := Ideal) (kblk m c t) (fblk m c t) prev (ix2 hw ⟨cc.val, by have := cc.isLt; omega⟩)
        = partialSum (keys m c) (feats m c) b hw cc (k + 1))
      ∧ k0_pay2 (F := Ideal) (kblk m c t) (fblk m c t) prev (ix2 hw ⟨64, by omega⟩) = partialCount (keys m c) b hw (k + 1) :=
  ⟨fun cc => step_channel (keys m c) (feats m c) (kblk m c t) (fblk m c t) b k hk (kblk_apply m c t b k hk ht) (fblk_apply m c t b k hk ht) hw cc prev (hs cc),
    step_count (keys m c) (kblk m c t) (fblk m c t) b k hk (kblk_apply m c t b k hk ht) hw prev hc⟩

/-- THE INVARIANT: after point 16 b + k the accumulator holds the sums and the count below 512 (k + 1). -/
theorem acc_inv (c : Dev nD) : ∀ (n : ℕ) (hn : n < cfg0.N) (b : Fin 32) (k : ℕ) (hk : k < 16) (hnk : n = 16 * b.val + k) (hw : Fin 4096),
    (∀ cc : Fin 64, (outsAt0 m c n hn).2.2 (ix2 hw ⟨cc.val, by have := cc.isLt; omega⟩) = partialSum (keys m c) (feats m c) b hw cc (k + 1))
      ∧ (outsAt0 m c n hn).2.2 (ix2 hw ⟨64, by omega⟩) = partialCount (keys m c) b hw (k + 1) := by
  intro n
  induction n with
  | zero =>
    intro hn b k hk hnk hw
    obtain rfl : k = 0 := by omega
    have h1 : ¬(0 : ℕ) % 16 = 15 := by decide
    have e := outsAt0_A m c ⟨0, hn⟩ rfl h1
    rw [show outsAt0 m c 0 hn = outsAt0 m c (⟨0, hn⟩ : Fin cfg0.N).val (⟨0, hn⟩ : Fin cfg0.N).isLt from rfl, e]
    dsimp only
    rw [scratch_A]
    exact after_point m c ⟨0, hn⟩ b 0 hk hnk hw _ (fun cc => (pay1_apply _).trans (partialSum_zero _ _ _ _ _).symm)
      ((pay1_apply _).trans (partialCount_zero _ _ _).symm)
  | succ n ih =>
    intro hn b k hk hnk hw
    have hN : n + 1 < 512 := lt_of_lt_of_eq hn (show cfg0.N = 512 from N_0)
    by_cases h0 : (n + 1) % 16 = 0
    · obtain rfl : k = 0 := by omega
      have h1 : ¬(n + 1) % 16 = 15 := by omega
      have e := outsAt0_A m c ⟨n + 1, hn⟩ h0 h1
      rw [show outsAt0 m c (n + 1) hn = outsAt0 m c (⟨n + 1, hn⟩ : Fin cfg0.N).val (⟨n + 1, hn⟩ : Fin cfg0.N).isLt from rfl, e]
      dsimp only
      rw [scratch_A]
      exact after_point m c ⟨n + 1, hn⟩ b 0 hk hnk hw _ (fun cc => (pay1_apply _).trans (partialSum_zero _ _ _ _ _).symm)
        ((pay1_apply _).trans (partialCount_zero _ _ _).symm)
    · obtain ⟨k', rfl⟩ : ∃ k', k = k' + 1 := ⟨k - 1, by omega⟩
      have ihn := ih (Nat.lt_of_succ_lt hn) b k' (by omega) (by omega) hw
      by_cases h1 : (n + 1) % 16 = 15
      · have e := outsAt0_C m c ⟨n + 1, hn⟩ h0 h1
        rw [show outsAt0 m c (n + 1) hn = outsAt0 m c (⟨n + 1, hn⟩ : Fin cfg0.N).val (⟨n + 1, hn⟩ : Fin cfg0.N).isLt from rfl, e]
        dsimp only
        rw [scratch_C]
        exact after_point m c ⟨n + 1, hn⟩ b (k' + 1) hk hnk hw _ ihn.1 ihn.2
      · have e := outsAt0_B m c ⟨n + 1, hn⟩ h0 h1
        rw [show outsAt0 m c (n + 1) hn = outsAt0 m c (⟨n + 1, hn⟩ : Fin cfg0.N).val (⟨n + 1, hn⟩ : Fin cfg0.N).isLt from rfl, e]
        dsimp only
        rw [scratch_B]
        exact after_point m c ⟨n + 1, hn⟩ b (k' + 1) hk hnk hw _ ihn.1 ihn.2

end Cert.KernelIdeal.AccValue

end
-- ==== Proof.KernelArrays.lean ====
/-
  The call's two result arrays after the run. The sums block and the counts block of batch b are written back once,
  after the batch's last point 16 b + 15, when the accumulator holds the sums and counts over ALL the batch's nodes;
  the 32 written blocks tile the two arrays. So the sums array ends holding, at (b, hw, c), the cell sum, and the
  counts array, at (b, hw, 0), the cell count.
-/
import proofs.«403612_j56538949484911_1_alg».proof.Proof.AccInvariant

noncomputable section

open scoped BigOperators
open Idealize.ShloMosaic Idealize.ShloMosaic.TcCoe Idealize.SL.Sem Idealize.ShloMosaic.ValueIdx
open Idealize.ShloMosaic.Pipeline (Dat)

namespace Cert.KernelIdeal.AccValue

open Cert.KernelIdeal Cert.KernelIdeal.Gen Cert.GridCells Cert.KernelIdeal.AccStep

variable (m : (ℓ : Loc nD τ sig) → Buf (Elt Ideal) ℓ)

/-- What the two result arrays end holding. -/
def sumsArr (c : Dev nD) : FVec Ideal S32x4096x64 .f32 := fun i => cellSum (feats m c) (keys m c) (i 0) (i 1) (i 2)
def countsArr (c : Dev nD) : FVec Ideal S32x4096x1 .f32 := fun i => cellCount (keys m c) (i 0) (i 1)

theorem sumsArr_apply (c : Dev nD) (i : S32x4096x64.Idx) (b : Fin 32) (hw : Fin 4096) (cc : Fin 64)
    (h0 : (i 0).val = b.val) (h1 : (i 1).val = hw.val) (h2 : (i 2).val = cc.val) :
    sumsArr m c i = cellSum (feats m c) (keys m c) b hw cc := by
  obtain rfl : i 0 = b := Fin.ext h0
  obtain rfl : i 1 = hw := Fin.ext h1
  obtain rfl : i 2 = cc := Fin.ext h2
  rfl

theorem countsArr_apply (c : Dev nD) (i : S32x4096x1.Idx) (b : Fin 32) (hw : Fin 4096)
    (h0 : (i 0).val = b.val) (h1 : (i 1).val = hw.val) :
    countsArr m c i = cellCount (keys m c) b hw := by
  obtain rfl : i 0 = b := Fin.ext h0
  obtain rfl : i 1 = hw := Fin.ext h1
  rfl

/-- Both result windows sit on block (t / 16, 0, 0) at point t. -/
theorem idx_sums : ∀ t : Fin cfg0.N, win0_2.index t (0 : Fin 3) = t.val / 16 ∧ win0_2.index t (1 : Fin 3) = 0 ∧ win0_2.index t (2 : Fin 3) = 0 :=
  (by decide +kernel : ∀ t : Fin grid0.N, _)
theorem idx_counts : ∀ t : Fin cfg0.N, win0_3.index t (0 : Fin 3) = t.val / 16 ∧ win0_3.index t (1 : Fin 3) = 0 ∧ win0_3.index t (2 : Fin 3) = 0 :=
  (by decide +kernel : ∀ t : Fin grid0.N, _)

/-- The re-laying of the channel columns as a [1, 4096, 64] block drops the leading unit coordinate. -/
theorem pay3_apply (X : FVec Ideal S4096x64 .f32) (j : S1x4096x64.Idx) : k0_pay3 (F := Ideal) X j = X (fun a => j a.succ) := by
  unfold k0_pay3
  exact shapeCast_addUnit_apply ![4096, 64] X _ j

theorem pay4_apply (X : FVec Ideal S4096x1 .f32) (j : S1x4096x1.Idx) : k0_pay4 (F := Ideal) X j = X (fun a => j a.succ) := by
  unfold k0_pay4
  exact shapeCast_addUnit_apply ![4096, 1] X _ j

/-- At a batch's last point the updated accumulator holds the batch's cell sums and counts. -/
theorem last_point (c : Dev nD) (t : Fin cfg0.N) (b : Fin 32) (hb : t.val = 16 * b.val + 15) (hw : Fin 4096) :
    (∀ cc : Fin 64, k0_pay2 (F := Ideal) (kblk m c t) (fblk m c t) (outsAt0 m c (t.val - 1) (Nat.lt_of_le_of_lt (Nat.sub_le _ _) t.isLt)).2.2
        (ix2 hw ⟨cc.val, by have := cc.isLt; omega⟩) = cellSum (feats m c) (keys m c) b hw cc)
      ∧ k0_pay2 (F := Ideal) (kblk m c t) (fblk m c t) (outsAt0 m c (t.val - 1) (Nat.lt_of_le_of_lt (Nat.sub_le _ _) t.isLt)).2.2
        (ix2 hw ⟨64, by omega⟩) = cellCount (keys m c) b hw := by
  have ih := acc_inv m c (t.val - 1) (Nat.lt_of_le_of_lt (Nat.sub_le _ _) t.isLt) b 14 (by omega) (by omega) hw
  have h := after_point m c t b 15 (by omega) hb hw _ ih.1 ih.2
  exact ⟨fun cc => (h.1 cc).trans (partialSum_all _ _ _ _ _), h.2.trans (partialCount_all _ _ _)⟩

theorem flushed2_eq (c : Dev nD) (t : Fin cfg0.N) (hf : (cfg0.win 2).flush t = true) :
    (dats m 0 c).flushed 2 t = ((cfg0.win 2).blk t).view.read (Elt Ideal) (sumsArr m c) := by
  have h1 : t.val % 16 = 15 := (flush0_2 t).mp hf
  have h0 : ¬t.val % 16 = 0 := by omega
  have hN : t.val < 512 := lt_of_lt_of_eq t.isLt (show cfg0.N = 512 from N_0)
  obtain ⟨b, hb⟩ : ∃ b : Fin 32, t.val = 16 * b.val + 15 := ⟨⟨t.val / 16, by omega⟩, by show t.val = 16 * (t.val / 16) + 15; omega⟩
  show (cfg0.win 2).cut (grid0.coords t) ((dats m 0 c).after 2 t) = _
  rw [after0_2, outsAt0_C m c t h0 h1]
  dsimp only
  rw [sums_C]
  funext y
  rw [View.read_apply]
  have hy1 : (y 1).val < 4096 := (y 1).isLt
  have hy2 : (y 2).val < 64 := (y 2).isLt
  show k0_pay3 (fun j => k0_pay2 (kblk m c t) (fblk m c t) (outsAt0 m c (t.val - 1) _).2.2 (chanBox.idx j)) ((win0 2).xinj (grid0.coords t) y)
    = sumsArr m c (((cfg0.win 2).blk t).view.emb y)
  refine (pay3_apply _ _).trans ?_
  have e : chanBox.idx (fun a => ((win0 2).xinj (grid0.coords t) y) a.succ) = ix2 ⟨(y 1).val, hy1⟩ ⟨(y 2).val, by omega⟩ := by
    funext a
    apply Fin.ext
    match a with
    | ⟨0, _⟩ => show 0 + 1 * (y 1).val = (y 1).val; omega
    | ⟨1, _⟩ => show 0 + 1 * (y 2).val = (y 2).val; omega
  rw [e]
  refine ((last_point m c t b hb ⟨(y 1).val, hy1⟩).1 ⟨(y 2).val, hy2⟩).trans ?_
  obtain ⟨i0, i1, i2⟩ := idx_sums t
  refine (sumsArr_apply m c _ b ⟨(y 1).val, hy1⟩ ⟨(y 2).val, hy2⟩ ?_ ?_ ?_).symm
  · show win0_2.index t 0 * 1 + 1 * (y 0).val = b.val
    have hy0 : (y 0).val < 1 := (y 0).isLt
    rw [i0]; omega
  · show win0_2.index t 1 * 4096 + 1 * (y 1).val = (y 1).val
    rw [i1]; omega
  · show win0_2.index t 2 * 64 + 1 * (y 2).val = (y 2).val
    rw [i2]; omega

theorem flushed3_eq (c : Dev nD) (t : Fin cfg0.N) (hf : (cfg0.win 3).flush t = true) :
    (dats m 0 c).flushed 3 t = ((cfg0.win 3).blk t).view.read (Elt Ideal) (countsArr m c) := by
  have h1 : t.val % 16 = 15 := (flush0_3 t).mp hf
  have h0 : ¬t.val % 16 = 0 := by omega
  have hN : t.val < 512 := lt_of_lt_of_eq t.isLt (show cfg0.N = 512 from N_0)
  obtain ⟨b, hb⟩ : ∃ b : Fin 32, t.val = 16 * b.val + 15 := ⟨⟨t.val / 16, by omega⟩, by show t.val = 16 * (t.val / 16) + 15; omega⟩
  show (cfg0.win 3).cut (grid0.coords t) ((dats m 0 c).after 3 t) = _
  rw [after0_3, outsAt0_C m c t h0 h1]
  dsimp only
  rw [counts_C]
  funext y
  rw [View.read_apply]
  have hy0 : (y 0).val < 1 := (y 0).isLt
  have hy1 : (y 1).val < 4096 := (y 1).isLt
  have hy2 : (y 2).val < 1 := (y 2).isLt
  show k0_pay4 (fun j => k0_pay2 (kblk m c t) (fblk m c t) (outsAt0 m c (t.val - 1) _).2.2 (countBox.idx j)) ((win0 3).xinj (grid0.coords t) y)
    = countsArr m c (((cfg0.win 3).blk t).view.emb y)
  refine (pay4_apply _ _).trans ?_
  have e : countBox.idx (fun a => ((win0 3).xinj (grid0.coords t) y) a.succ) = ix2 ⟨(y 1).val, hy1⟩ ⟨64, by omega⟩ := by
    funext a
    apply Fin.ext
    match a with
    | ⟨0, _⟩ => show 0 + 1 * (y 1).val = (y 1).val; omega
    | ⟨1, _⟩ => show 64 + 1 * (y 2).val = 64; omega
  rw [e]
  refine ((last_point m c t b hb ⟨(y 1).val, hy1⟩).2).trans ?_
  obtain ⟨i0, i1, i2⟩ := idx_counts t
  refine (countsArr_apply m c _ b ⟨(y 1).val, hy1⟩ ?_ ?_).symm
  · show win0_3.index t 0 * 1 + 1 * (y 0).val = b.val
    rw [i0]; omega
  · show win0_3.index t 1 * 4096 + 1 * (y 1).val = (y 1).val
    rw [i1]; omega

/-- Batch b's last point. -/
def lastPoint (b : ℕ) (hb : b < 32) : Fin cfg0.N := ⟨16 * b + 15, by rw [show cfg0.N = 512 from N_0]; omega⟩

/-- The sums array ends holding the cell sums: the block written after point 16 b + 15 is row b of it. -/
theorem final_sums (c : Dev nD) : (dats m 0 c).arrAt 2 cfg0.N = sumsArr m c :=
  (dats m 0 c).arrAt_eq_of_cover 2 (sumsArr m c) (flushed2_eq m c) fun i => by
    have h0 : (i 0 : Nat) < 32 := (i 0).isLt
    have h1 : (i 1 : Nat) < 4096 := (i 1).isLt
    have h2 : (i 2 : Nat) < 64 := (i 2).isLt
    refine ⟨lastPoint (i 0).val h0, (flush0_2 _).mpr (by show (16 * (i 0).val + 15) % 16 = 15; omega), ?_⟩
    obtain ⟨i0, i1, i2⟩ := idx_sums (lastPoint (i 0).val h0)
    show i ∈ ((View.whole main_v0_0).slice (win0_2.rect (lastPoint (i 0).val h0))).set
    rw [View.set_slice_whole, Rect.mem_set_unit]
    intro a
    match a with
    | ⟨0, _⟩ =>
      show win0_2.index (lastPoint (i 0).val h0) 0 * 1 ≤ (i 0 : Nat) ∧ (i 0 : Nat) < win0_2.index (lastPoint (i 0).val h0) 0 * 1 + 1
      rw [i0]; show (16 * (i 0).val + 15) / 16 * 1 ≤ (i 0 : Nat) ∧ (i 0 : Nat) < (16 * (i 0).val + 15) / 16 * 1 + 1; omega
    | ⟨1, _⟩ =>
      show win0_2.index (lastPoint (i 0).val h0) 1 * 4096 ≤ (i 1 : Nat) ∧ (i 1 : Nat) < win0_2.index (lastPoint (i 0).val h0) 1 * 4096 + 4096
      rw [i1]; omega
    | ⟨2, _⟩ =>
      show win0_2.index (lastPoint (i 0).val h0) 2 * 64 ≤ (i 2 : Nat) ∧ (i 2 : Nat) < win0_2.index (lastPoint (i 0).val h0) 2 * 64 + 64
      rw [i2]; omega

/-- The counts array ends holding the cell counts. -/
theorem final_counts (c : Dev nD) : (dats m 0 c).arrAt 3 cfg0.N = countsArr m c :=
  (dats m 0 c).arrAt_eq_of_cover 3 (countsArr m c) (flushed3_eq m c) fun i => by
    have h0 : (i 0 : Nat) < 32 := (i 0).isLt
    have h1 : (i 1 : Nat) < 4096 := (i 1).isLt
    have h2 : (i 2 : Nat) < 1 := (i 2).isLt
    refine ⟨lastPoint (i 0).val h0, (flush0_3 _).mpr (by show (16 * (i 0).val + 15) % 16 = 15; omega), ?_⟩
    obtain ⟨i0, i1, i2⟩ := idx_counts (lastPoint (i 0).val h0)
    show i ∈ ((View.whole main_v0_1).slice (win0_3.rect (lastPoint (i 0).val h0))).set
    rw [View.set_slice_whole, Rect.mem_set_unit]
    intro a
    match a with
    | ⟨0, _⟩ =>
      show win0_3.index (lastPoint (i 0).val h0) 0 * 1 ≤ (i 0 : Nat) ∧ (i 0 : Nat) < win0_3.index (lastPoint (i 0).val h0) 0 * 1 + 1
      rw [i0]; show (16 * (i 0).val + 15) / 16 * 1 ≤ (i 0 : Nat) ∧ (i 0 : Nat) < (16 * (i 0).val + 15) / 16 * 1 + 1; omega
    | ⟨1, _⟩ =>
      show win0_3.index (lastPoint (i 0).val h0) 1 * 4096 ≤ (i 1 : Nat) ∧ (i 1 : Nat) < win0_3.index (lastPoint (i 0).val h0) 1 * 4096 + 4096
      rw [i1]; omega
    | ⟨2, _⟩ =>
      show win0_3.index (lastPoint (i 0).val h0) 2 * 1 ≤ (i 2 : Nat) ∧ (i 2 : Nat) < win0_3.index (lastPoint (i 0).val h0) 2 * 1 + 1
      rw [i2]; omega

end Cert.KernelIdeal.AccValue

end
-- ==== Proof.TailValue.lean ====
/-
  The host lines after the kernel call, as one function of the call's two result arrays, read at an index: the
  counts are raised to at least the literal one, spread over the 64 channels, the sums divided by them, and the
  [32, 4096, 64] quotient re-laid as [32, 64, 64, 64] and transposed to channel-major, so that entry (b, c, h, w) of
  the result is entry (b, 64 h + w, c) of the sums over the larger of entry (b, 64 h + w, 0) of the counts and one.
-/
import proofs.«403612_j56538949484911_1_alg».proof.Proof.Gen.KernelIdeal
import proofs.«403612_j56538949484911_1_alg».proof.Proof.Spec
import Idealize.ShloMosaic.Lib.Pipeline.Value
import Idealize.ShloMosaic.Lib.ValueLayout

noncomputable section

namespace Cert.KernelIdeal.TailValue

open Idealize.ShloMosaic Idealize.ShloMosaic.ValueIdx Cert.KernelIdeal Cert.KernelIdeal.Gen Cert.GridCells

/-- The lines after the call, applied to the sums S and the counts C. -/
def tail (S : FVec Ideal S32x4096x64 .f32) (C : FVec Ideal S32x4096x1 .f32) : FVec Ideal S32x64x64x64 .f32 :=
  transpose S32x64x64x64 [0, 3, 1, 2]
    (shapeCast S32x64x64x64
      (Host.divf (F := Ideal) S
        (broadcastInDim S32x4096x64 ![0, 1, 2] Facts₀.bcast_S32x4096x1_S32x4096x64_0_1_2
          (maximumf C (broadcastInDim S32x4096x1 ![] Facts₀.bcast_S_S32x4096x1 (constant (F := Ideal) S_ .f32 0x3F800000#32)))))
      Facts₀.shapeCasts_S32x4096x64_S32x64x64x64)
    Facts₀.transposes_S32x64x64x64_S32x64x64x64_0_3_1_2

/-- Entry (b, c, h, w) of the result. -/
theorem tail_apply (S : FVec Ideal S32x4096x64 .f32) (C : FVec Ideal S32x4096x1 .f32) (b : Fin 32) (c h w : Fin 64) :
    tail S C (ix4 b c h w)
      = Ideal.div (S (ix3 b (cellOf h w) c)) (max (C (ix3 b (cellOf h w) 0)) (Ideal.ofBits .f32 0x3F800000#32)) := by
  unfold tail
  -- the transpose to channel-major: entry (b, c, h, w) of the result is entry (b, h, w, c) of its operand
  refine (transpose_apply [0, 3, 1, 2] _ Facts₀.transposes_S32x64x64x64_S32x64x64x64_0_3_1_2 (ix4 b c h w) (ix4 b h w c)
    (fun a => match a with
      | ⟨0, _⟩ => rfl
      | ⟨1, _⟩ => rfl
      | ⟨2, _⟩ => rfl
      | ⟨3, _⟩ => rfl)).trans ?_
  -- the re-laying: entry (b, h, w, c) of [32, 64, 64, 64] is entry (b, 64 h + w, c) of [32, 4096, 64], the same
  -- row-major position
  refine (shapeCast_apply _ Facts₀.shapeCasts_S32x4096x64_S32x64x64x64 (ix4 b h w c) (ix3 b (cellOf h w) c) ?_).trans ?_
  · rw [Shape.rowMajor_val_three, Shape.rowMajor_val_four]
    show (b.val * 4096 + (h.val * 64 + w.val)) * 64 + c.val = ((b.val * 64 + h.val) * 64 + w.val) * 64 + c.val
    omega
  -- the quotient is taken entry by entry; the divisor at channel c is the raised count at channel 0
  show Ideal.div (S (ix3 b (cellOf h w) c)) _ = _
  refine congrArg (Ideal.div (S (ix3 b (cellOf h w) c))) ?_
  refine (broadcastInDim_apply ![0, 1, 2] Facts₀.bcast_S32x4096x1_S32x4096x64_0_1_2 _ (ix3 b (cellOf h w) c)
    (ix3 b (cellOf h w) 0) (fun a => match a with
      | ⟨0, _⟩ => rfl
      | ⟨1, _⟩ => rfl
      | ⟨2, _⟩ => rfl)).trans ?_
  -- the raised count: the larger of the count and the literal one, the latter a spread scalar constant
  rfl

end Cert.KernelIdeal.TailValue

end
-- ==== Proof.KernelValue.lean ====
/-
  The kernel program's run, read: after the call the two result arrays hold the cell sums and the cell counts, the
  host lines after the call turn them into the grid average, and the two arguments are as they were.
-/
import proofs.«403612_j56538949484911_1_alg».proof.Proof.KernelArrays
import proofs.«403612_j56538949484911_1_alg».proof.Proof.TailValue
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.AccValue

open Cert.KernelIdeal Cert.KernelIdeal.Gen Cert.GridCells Cert.KernelIdeal.TailValue

variable (m : (ℓ : Loc nD τ sig) → Buf (Elt Ideal) ℓ) (ρ : Dev nD → PrngReg)

/-- The result buffer after the host lines that follow the call: those lines applied to the two arrays the call left. -/
theorem result_eq (c : Dev nD) :
    Pipeline.afterTail₀ cfgs (dats m) 0 (V0 m) [hostOps1] c main_v6 = tail (sumsArr m c) (countsArr m c) := by
  have e2 : Pipeline.withArrays (cfgs 0).spec c (V0 m c) (fun w => (dats m 0 c).arrAt w (cfgs 0).N) (Proc.devRef .tc main_v0_0)
      = sumsArr m c :=
    (Pipeline.withArrays_arr spec0 launch0.win.arr_inj c (V0 m c) (fun w => (dats m 0 c).arrAt w cfg0.N) 2).trans (final_sums m c)
  have e3 : Pipeline.withArrays (cfgs 0).spec c (V0 m c) (fun w => (dats m 0 c).arrAt w (cfgs 0).N) (Proc.devRef .tc main_v0_1)
      = countsArr m c :=
    (Pipeline.withArrays_arr spec0 launch0.win.arr_inj c (V0 m c) (fun w => (dats m 0 c).arrAt w cfg0.N) 3).trans (final_counts m c)
  unfold Pipeline.afterTail₀
  show StableHlo.after hostOps1 _ (Proc.devRef .tc main_v6) = _
  after_results
  rw [e2, e3]
  rfl

/-- The lines after the call, applied to the cell sums and counts, give the grid average. -/
theorem tail_eq (c : Dev nD) : tail (sumsArr m c) (countsArr m c) = gridAvg (feats m c) (keys m c) := by
  funext i
  obtain ⟨b, cc, h, w, rfl⟩ : ∃ (b : Fin 32) (cc h w : Fin 64), i = ix4 b cc h w := ⟨i 0, i 1, i 2, i 3, eq_ix4 i⟩
  rw [tail_apply]
  rfl

/-- THE RUN: the result is the grid average of the two arguments, which end as they began. -/
theorem run : θ_run defs (onTc (τ := τ) (main (F := Ideal))) ⟨m, fun _ => 0, ρ⟩ fun r => ∀ c : Dev nD,
      r.2.mem ((c.tc : Thread nD τ).loc main_v6)
        = gridAvg (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 rfl (fun w => by fin_cases w <;> decide))).trans
        ((result_eq m c).trans (tail_eq m c)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.AccValue

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.LibVecScatter.lean ====
/-
  GENERAL LEMMA: the accumulating scatter of a VECTOR of updates into a vector, read at an index over the extended
  reals, for ARBITRARY extents N (cells) and E (edges).

  The scatter (`segment_sum` / `.at[idx].add` of [E] updates into an [N] operand at a column [E, 1] of start words,
  with no window axis: `vecScatter`, `vecScatter_resultIdx_iff`, `vecScatterAdd_apply`): update e lands at the start
  word of edge e read signed and NOT clamped, or nowhere when that is no cell; so result d is the operand`s entry
  plus the sum over the edges whose word, read signed, is d of update e.
  Nothing here mentions a program: the dimension-number record is built from a well-formedness fact the caller has.
-/
import Idealize.ShloMosaic.PureOps.Ideal
import Idealize.ShloMosaic.PureOps.Contract
import Idealize.ShloMosaic.Lib.ValueIdx
import Mathlib.Algebra.BigOperators.Group.Finset.Basic
import Mathlib.Algebra.BigOperators.Fin

noncomputable section

open scoped BigOperators

namespace Cert.ReferenceIdeal.HandVec

open Idealize.ShloMosaic Idealize.ShloMosaic.ValueIdx

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of a vector [E] of updates into an [N] operand at a column [E, 1] of start
    words: no window axis, the one operand axis inserted and indexed. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

/-- The window of update e starts at the start word of e, read signed. -/
theorem vecScatter_start_zero (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window coordinate of update e is 0: the one operand axis is inserted. -/
theorem vecScatter_window_zero (e : Fin E) :
    (vecScatter N E wf).window (ix1 e) 0 = 0 := by
  unfold ScatterDims.window
  rw [dif_neg]
  show (0 : Fin 1) ∉ (List.finRange 1).filter (· ∉ [(0 : Fin 1)])
  decide

/-- Update e lands at d exactly when the start word of e, read signed, is d. -/
theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    constructor
    · intro hf
      have e0 := congrArg (fun f => (f 0).val) hf
      simp only [vecScatter_start_zero, vecScatter_window_zero] at e0
      have h0 := h 0
      rw [vecScatter_start_zero, vecScatter_window_zero] at h0
      have : ((ix1 d : (⟨1, ![N]⟩ : Shape).Idx) 0).val = d.val := rfl
      omega
    · intro hd
      funext a
      refine Fin.ext ?_
      match a with
      | ⟨0, _⟩ =>
        show ((vecScatter N E wf).start (ix1 e) idx 0 + ((vecScatter N E wf).window (ix1 e) 0 : ℕ)).toNat = d.val
        rw [vecScatter_start_zero, vecScatter_window_zero]
        omega
  · next h =>
    constructor
    · intro hf
      exact absurd hf (by simp)
    · intro hd
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start_zero, vecScatter_window_zero]
        have := d.isLt
        omega

/-- THE ACCUMULATING VECTOR SCATTER AT d: the operand`s entry plus the sum, over the edges whose start word read
    signed is d, of update e. -/
theorem vecScatterAdd_apply {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  simp only [vecScatter_resultIdx_iff]

end Cert.ReferenceIdeal.HandVec

end
-- ==== Proof.RefValue.lean ====
/-
  The reference read: its result at (b, c, h, w) is the grid average of the spec. The two scatter-adds accumulate,
  at flat cell s, the feature rows and the ones of the flat nodes e whose flat cell word is s; with the keys in range
  the flat cell word of node n of batch b is 4096 b + (its cell word), so flat cell 4096 b + hw collects exactly the
  nodes of batch b that land in cell hw.
-/
import proofs.«403612_j56538949484911_1_alg».proof.Proof.Gen.ReferenceIdeal.Read
import proofs.«403612_j56538949484911_1_alg».proof.Proof.LibRowGatherScatter
import proofs.«403612_j56538949484911_1_alg».proof.Proof.LibVecScatter
import proofs.«403612_j56538949484911_1_alg».proof.Proof.Spec

noncomputable section

open scoped BigOperators

namespace Cert.ReferenceIdeal.RefValue

open Idealize.ShloMosaic Idealize.ShloMosaic.ValueIdx Cert.ReferenceIdeal Cert.GridCells
open Cert.ReferenceIdeal.Read Cert.ReferenceIdeal.Hand Cert.ReferenceIdeal.HandVec

/-! ## The flat cell word -/

/-- The flat cell word of node n of batch b, as the reference spells it: ((b * 64 + row) * 64 + col) in 32-bit
    arithmetic. -/
def flatWord (x1 : IVec S32x8192x2 32) (b : Fin 32) (n : Fin 8192) : BitVec 32 :=
  IntOp.addi (IntOp.muli (IntOp.addi (IntOp.muli (BitVec.ofNat 32 b.val) 64#32) (x1 (ix3 b n 0))) 64#32) (x1 (ix3 b n 1))

/-- The word array before flattening, at (b, n): the flat cell word of node n of batch b. -/
theorem v12_apply (x1 : IVec S32x8192x2 32) (b : Fin 32) (n : Fin 8192) :
    val_main_v12 (F := Ideal) x1 (ix2 b n) = flatWord x1 b n := by
  rw [val_main_v12_apply, val_main_v11_apply, val_main_v9_apply, val_main_v8_apply, val_main_v7_apply,
    val_main_v5_apply, val_main_v4_apply, val_main_v6_apply, val_main_c_apply, val_main_v10_apply,
    val_main_c_0_apply, val_main_v1_apply, val_main_v0_apply, val_main_v3_apply, val_main_v2_apply]
  have h0 : idx_main_v0 (idx_main_v1 (ix2 b n)) = ix3 b n 0 := by
    funext a; refine Fin.ext ?_
    have hb := b.isLt; have hn := n.isLt
    match a with
    | ⟨0, _⟩ => show (b.val * 8192 + n.val) / 8192 = b.val; omega
    | ⟨1, _⟩ => show (b.val * 8192 + n.val) / 1 % 8192 = n.val; omega
    | ⟨2, _⟩ => rfl
  have h1 : idx_main_v2 (idx_main_v3 (ix2 b n)) = ix3 b n 1 := by
    funext a; refine Fin.ext ?_
    have hb := b.isLt; have hn := n.isLt
    match a with
    | ⟨0, _⟩ => show (b.val * 8192 + n.val) / 8192 = b.val; omega
    | ⟨1, _⟩ => show (b.val * 8192 + n.val) / 1 % 8192 = n.val; omega
    | ⟨2, _⟩ => rfl
  rw [h0, h1]
  rfl

/-! ## The flat cell word with the keys in range -/

/-- A key in range, read unsigned, is below 64. -/
theorem toNat_lt_of_range (v : BitVec 32) (h : 0 ≤ v.toInt ∧ v.toInt < 64) : v.toNat < 64 := by
  have h2 := BitVec.toInt_eq_toNat_cond v
  have h3 := v.isLt
  split at h2 <;> omega

/-- With the keys in range the cell word of a node, read unsigned, is 64 row + col. -/
theorem cellWord_toNat (x1 : IVec S32x8192x2 32) (hk : KeysInRange x1) (b : Fin 32) (n : Fin 8192) :
    (cellWord x1 b n).toNat = 64 * (x1 (ix3 b n 0)).toNat + (x1 (ix3 b n 1)).toNat := by
  have hy := toNat_lt_of_range _ (hk (ix3 b n 0))
  have hx := toNat_lt_of_range _ (hk (ix3 b n 1))
  unfold cellWord IntOp.addi IntOp.muli
  simp only [BitVec.toNat_add, BitVec.toNat_mul, BitVec.toNat_ofNat]
  omega

/-- With the keys in range the flat cell word, read unsigned, is 4096 b + 64 row + col: nothing wraps. -/
theorem flatWord_toNat (x1 : IVec S32x8192x2 32) (hk : KeysInRange x1) (b : Fin 32) (n : Fin 8192) :
    (flatWord x1 b n).toNat = 4096 * b.val + (64 * (x1 (ix3 b n 0)).toNat + (x1 (ix3 b n 1)).toNat) := by
  have hy := toNat_lt_of_range _ (hk (ix3 b n 0))
  have hx := toNat_lt_of_range _ (hk (ix3 b n 1))
  have hb := b.isLt
  unfold flatWord IntOp.addi IntOp.muli
  simp only [BitVec.toNat_add, BitVec.toNat_mul, BitVec.toNat_ofNat]
  omega

/-- The flat cell word of node n of batch b, read signed, is flat cell 4096 b' + hw exactly when b = b' and the node
    lands in cell hw of its batch. -/
theorem flatWord_toInt_iff (x1 : IVec S32x8192x2 32) (hk : KeysInRange x1) (b b' : Fin 32) (n : Fin 8192)
    (hw : Fin 4096) :
    (flatWord x1 b n).toInt = ((4096 * b'.val + hw.val : ℕ) : ℤ) ↔ b = b' ∧ Lands x1 b hw n := by
  have hy := toNat_lt_of_range _ (hk (ix3 b n 0))
  have hx := toNat_lt_of_range _ (hk (ix3 b n 1))
  have hb := b.isLt
  have hb' := b'.isLt
  have hhw := hw.isLt
  have hF := flatWord_toNat x1 hk b n
  have hC := cellWord_toNat x1 hk b n
  have hI := BitVec.toInt_eq_toNat_cond (flatWord x1 b n)
  have hL : Lands x1 b hw n ↔ (cellWord x1 b n).toNat = hw.val := by
    unfold Lands
    rw [← BitVec.toNat_inj, BitVec.toNat_ofNat]
    have : hw.val % 2 ^ 32 = hw.val := Nat.mod_eq_of_lt (by omega)
    rw [this]
  rw [hL, Fin.ext_iff]
  split at hI <;> omega

/-! ## Flat nodes: e = 8192 b + n -/

/-- The batch of flat node e. -/
def nodeB (e : Fin 262144) : Fin 32 := ⟨e.val / 8192, by have := e.isLt; omega⟩
/-- The node number of flat node e within its batch. -/
def nodeN (e : Fin 262144) : Fin 8192 := ⟨e.val % 8192, by omega⟩
/-- The flat node of node n of batch b. -/
def flatNode (b : Fin 32) (n : Fin 8192) : Fin 262144 :=
  ⟨8192 * b.val + n.val, by have := b.isLt; have := n.isLt; omega⟩

theorem nodeB_flatNode (b : Fin 32) (n : Fin 8192) : nodeB (flatNode b n) = b := by
  refine Fin.ext ?_
  have := n.isLt
  show (8192 * b.val + n.val) / 8192 = b.val
  omega

theorem nodeN_flatNode (b : Fin 32) (n : Fin 8192) : nodeN (flatNode b n) = n := by
  refine Fin.ext ?_
  have := n.isLt
  show (8192 * b.val + n.val) % 8192 = n.val
  omega

theorem flatNode_node (e : Fin 262144) : flatNode (nodeB e) (nodeN e) = e := by
  refine Fin.ext ?_
  show 8192 * (e.val / 8192) + e.val % 8192 = e.val
  omega

/-- The column of start words at (e, 0): the flat cell word of flat node e. -/
theorem v16_apply (x1 : IVec S32x8192x2 32) (e : Fin 262144) :
    val_main_v16 (F := Ideal) x1 (ix2 e 0) = flatWord x1 (nodeB e) (nodeN e) := by
  rw [val_main_v16_apply, val_main_v13_apply]
  have h : idx_main_v13 (idx_main_v16 (ix2 e 0)) = ix2 (nodeB e) (nodeN e) := by
    funext a; refine Fin.ext ?_
    match a with
    | ⟨0, _⟩ => rfl
    | ⟨1, _⟩ => rfl
  rw [h, v12_apply]

/-- The second scatter reads the same column. -/
theorem v20_apply (x1 : IVec S32x8192x2 32) (e : Fin 262144) :
    val_main_v20 (F := Ideal) x1 (ix2 e 0) = flatWord x1 (nodeB e) (nodeN e) :=
  v16_apply x1 e

/-- The flattened feature rows at (e, c): channel c of the feature row of flat node e. -/
theorem v14_apply (x0 : FVec Ideal S32x8192x64 .f32) (e : Fin 262144) (c : Fin 64) :
    val_main_v14 (F := Ideal) x0 (ix2 e c) = x0 (ix3 (nodeB e) (nodeN e) c) := by
  rw [val_main_v14_apply]
  congr 1
  funext a; refine Fin.ext ?_
  have he := e.isLt; have hc := c.isLt
  match a with
  | ⟨0, _⟩ => show (e.val * 64 + c.val) / 524288 = e.val / 8192; omega
  | ⟨1, _⟩ => show (e.val * 64 + c.val) / 64 % 8192 = e.val % 8192; omega
  | ⟨2, _⟩ => show (e.val * 64 + c.val) % 64 = c.val; omega

/-- The first scatter at (s, c): the sum over the flat nodes whose flat cell word, read signed, is s of channel c
    of their feature row. -/
theorem v17_apply (x0 : FVec Ideal S32x8192x64 .f32) (x1 : IVec S32x8192x2 32) (s : Fin 131072) (c : Fin 64) :
    val_main_v17 (F := Ideal) x0 x1 (ix2 s c)
      = ∑ e ∈ Finset.univ.filter (fun e : Fin 262144 => (flatWord x1 (nodeB e) (nodeN e)).toInt = (s.val : ℤ)),
        x0 (ix3 (nodeB e) (nodeN e) c) := by
  unfold val_main_v17
  refine (rowScatterAdd_apply (N := 131072) (E := 262144) (D := 64)
    Facts₀.scatter_S131072x64_S262144x1_S262144x64_1_0_0_1_wf (val_main_v16 (F := Ideal) x1)
    (val_main_v15 (F := Ideal)) (val_main_v14 (F := Ideal) x0) s c).trans ?_
  rw [val_main_v15_apply, val_main_cst_apply, Ideal.ofBits_def, Ideal.ofBits_zero_f32, zero_add]
  simp only [v16_apply, v14_apply]

/-- The second scatter at s: the sum of a one over the flat nodes whose flat cell word, read signed, is s. -/
theorem v21_apply (x1 : IVec S32x8192x2 32) (s : Fin 131072) :
    val_main_v21 (F := Ideal) x1 (ix1 s)
      = ∑ _e ∈ Finset.univ.filter (fun e : Fin 262144 => (flatWord x1 (nodeB e) (nodeN e)).toInt = (s.val : ℤ)),
        (1 : EReal) := by
  unfold val_main_v21
  refine (vecScatterAdd_apply (N := 131072) (E := 262144)
    Facts₀.scatter_S131072_S262144x1_S262144_n_0_0_1_wf (val_main_v20 (F := Ideal) x1)
    (val_main_v19 (F := Ideal)) (val_main_v18 (F := Ideal)) s).trans ?_
  rw [val_main_v19_apply, val_main_cst_2_apply, Ideal.ofBits_def, Ideal.ofBits_zero_f32, zero_add]
  simp only [v20_apply, val_main_v18_apply, val_main_cst_1_apply, Ideal.ofBits_def, ofBits_f32_one]

/-! ## The nodes a flat cell collects -/

/-- The flat nodes whose flat cell word is flat cell 4096 b + hw are the nodes of batch b that land in cell hw: a sum
    over the former is the sum over the latter. -/
theorem sum_flat_eq (x1 : IVec S32x8192x2 32) (hk : KeysInRange x1) (b : Fin 32) (hw : Fin 4096) (s : Fin 131072)
    (hs : s.val = 4096 * b.val + hw.val) (f : Fin 32 → Fin 8192 → EReal) :
    ∑ e ∈ Finset.univ.filter (fun e : Fin 262144 => (flatWord x1 (nodeB e) (nodeN e)).toInt = (s.val : ℤ)),
        f (nodeB e) (nodeN e)
      = ∑ n ∈ Finset.univ.filter (Lands x1 b hw), f b n := by
  symm
  refine Finset.sum_nbij' (fun n => flatNode b n) (fun e => nodeN e) ?_ ?_ ?_ ?_ ?_
  · intro n hn
    rw [Finset.mem_filter] at hn ⊢
    refine ⟨Finset.mem_univ _, ?_⟩
    rw [nodeB_flatNode, nodeN_flatNode, hs]
    exact (flatWord_toInt_iff x1 hk b b n hw).mpr ⟨rfl, hn.2⟩
  · intro e he
    rw [Finset.mem_filter] at he ⊢
    refine ⟨Finset.mem_univ _, ?_⟩
    have h := he.2
    rw [hs] at h
    obtain ⟨hb, hl⟩ := (flatWord_toInt_iff x1 hk (nodeB e) b (nodeN e) hw).mp h
    rw [hb] at hl
    exact hl
  · intro n _
    exact nodeN_flatNode b n
  · intro e he
    rw [Finset.mem_filter] at he
    have h := he.2
    rw [hs] at h
    obtain ⟨hb, _⟩ := (flatWord_toInt_iff x1 hk (nodeB e) b (nodeN e) hw).mp h
    show flatNode b (nodeN e) = e
    rw [← hb]
    exact flatNode_node e
  · intro n _
    rw [nodeB_flatNode, nodeN_flatNode]

/-! ## The result -/

/-- The reference's result at (b, c, h, w) is the grid average there. -/
theorem ref_at (x0 : FVec Ideal S32x8192x64 .f32) (x1 : IVec S32x8192x2 32) (hk : KeysInRange x1)
    (b : Fin 32) (c h w : Fin 64) :
    val_main_v28 (F := Ideal) x0 x1 (ix4 b c h w) = gridAvg x0 x1 (ix4 b c h w) := by
  have hb := b.isLt; have hc := c.isLt; have hh := h.isLt; have hw := w.isLt
  have hcell : (cellOf h w).val = h.val * 64 + w.val := rfl
  obtain ⟨s, hs⟩ : ∃ s : Fin 131072, s.val = 4096 * b.val + (cellOf h w).val :=
    ⟨⟨4096 * b.val + (cellOf h w).val, by omega⟩, rfl⟩
  rw [val_main_v28_apply, val_main_v27_apply]
  have hi : idx_main_v27 (idx_main_v28 (ix4 b c h w)) = ix2 s c := by
    funext a; refine Fin.ext ?_
    match a with
    | ⟨0, _⟩ =>
      show (((b.val * 64 + h.val) * 64 + w.val) * 64 + c.val) / 64 = s.val
      omega
    | ⟨1, _⟩ =>
      show (((b.val * 64 + h.val) * 64 + w.val) * 64 + c.val) % 64 = c.val
      omega
  rw [hi, val_main_v26_apply, Ideal.hostDivf_def, v17_apply, val_main_v25_apply, val_main_v24_apply]
  have hj : idx_main_v24 (idx_main_v25 (ix2 s c)) = ix1 s := by
    funext a; refine Fin.ext ?_
    match a with
    | ⟨0, _⟩ => rfl
  rw [hj, val_main_v23_apply, Ideal.maximumf_def, v21_apply, val_main_v22_apply, val_main_cst_3_apply,
    Ideal.ofBits_def]
  rw [sum_flat_eq x1 hk b (cellOf h w) s hs (fun b n => x0 (ix3 b n c)),
    sum_flat_eq x1 hk b (cellOf h w) s hs (fun _ _ => (1 : EReal))]
  rfl

/-- With the keys in range the reference's result is the grid average. -/
theorem ref_eq (x0 : FVec Ideal S32x8192x64 .f32) (x1 : IVec S32x8192x2 32) (hk : KeysInRange x1) :
    Cert.ReferenceIdeal.Read.val_main_v28 (F := Ideal) x0 x1 = gridAvg x0 x1 := by
  funext i
  rw [eq_ix4 i]
  exact ref_at x0 x1 hk (i 0) (i 1) (i 2) (i 3)

end Cert.ReferenceIdeal.RefValue

end
-- ==== Proof.PreRange.lean ====
/-
  The precondition read: its three conjuncts are "every feature is finite", "every key is at least 0" and "every key
  is below 64", each an all-reduction of an elementwise comparison; the last two say the keys are in range.
-/
import proofs.«403612_j56538949484911_1_alg».proof.Pre_finite_inputs
import proofs.«403612_j56538949484911_1_alg».proof.Proof.Gen.Pre_finite_inputs
import proofs.«403612_j56538949484911_1_alg».proof.Proof.Spec
import Idealize.ShloMosaic.Lib.ReduceAll

noncomputable section

namespace Cert.GridCells

open Idealize.ShloMosaic Idealize.ShloMosaic.ValueIdx

/-- The result of a reduction over every axis has one index. -/
instance : Subsingleton Cert.Pre_finite_inputs.S_.Idx := ⟨fun a b => funext fun d => d.elim0⟩

/-- The two 32-bit constants the keys are compared with, read signed. -/
theorem toInt_zero32 : (0#32 : BitVec 32).toInt = 0 := by decide
theorem toInt_sixtyfour32 : (64#32 : BitVec 32).toInt = 64 := by decide

/-- Where the printed precondition is all ones, every key is in [0, 64). -/
theorem keys_of_pre (x0 : FVec Ideal Cert.Pre_finite_inputs.S32x8192x64 .f32) (x1 : IVec Cert.Pre_finite_inputs.S32x8192x2 32)
    (h : Cert.Pre_finite_inputs.fn (F := Ideal) x0 x1 = fun _ => 1#1) : KeysInRange x1 := by
  intro i
  -- the one word of the result is the conjunction of the three all-reductions
  have h0 := congrFun h ValueIdx.ix0
  dsimp only [Cert.Pre_finite_inputs.fn] at h0
  obtain ⟨h7, h10⟩ := IntOp.andi_eq_one.1 h0
  obtain ⟨_, h6⟩ := IntOp.andi_eq_one.1 h7
  -- each all-reduction that is one had a one at key i
  have hge := Host.reduce_andi_all _ _ _ _ _ h6 i
  have hlt := Host.reduce_andi_all _ _ _ _ _ h10 i
  -- and a comparison that is one says its inequality, against the broadcast constant
  have hge' : (0#32 : BitVec 32).toInt ≤ (x1 i).toInt := IntOp.cmpi_sge.1 hge
  have hlt' : (x1 i).toInt < (64#32 : BitVec 32).toInt := IntOp.cmpi_slt.1 hlt
  rw [toInt_zero32] at hge'
  rw [toInt_sixtyfour32] at hlt'
  exact ⟨hge', hlt'⟩

end Cert.GridCells

end
-- ==== Proof.lean ====
/-
  Scattering node features onto a 64 × 64 grid, averaged per cell: the kernel against its reference.

  Each of the 32 batches has 8192 nodes; node n carries a feature row of 64 channels and a key pair (row, col), and
  lands in cell 64 · row + col of its batch's grid. Both programs return, at (b, c, h, w), the sum of channel c over the
  nodes of batch b that land in cell 64 h + w, divided by the larger of their number and one (Proof/Spec.lean:
  `gridAvg`).

  The reference adds the feature rows and a vector of ones into flat cells (4096 b + cell) by two accumulating
  scatters (Proof/RefValue.lean). The kernel walks the nodes of a batch in 16 tiles of 512: for each tile it forms the
  one-hot matrix "cell hw = cell of position k", multiplies it with the tile's feature rows widened by a column of
  ones, and adds the product to an accumulator it carries from point to point, so that after a batch's last tile
  column c of the accumulator holds the cell sums of channel c and column 64 the cell counts (Proof/TileValue.lean,
  Proof/AccStep.lean, Proof/AccInvariant.lean); the last tile's point copies them into the two result arrays
  (Proof/KernelArrays.lean), which the host lines after the call divide, re-lay and transpose (Proof/TailValue.lean,
  Proof/KernelValue.lean). A product with an exact 0 or 1 and a regrouping of a finite sum are all the algebra, so
  over the extended reals the two results are one function of the arguments whatever the features are.

  The two programs agree only for keys inside the grid: a key outside [0, 64) that the reference's flat cell number
  carries into a neighbouring batch's cells matches no cell of the kernel's own batch. The statement's precondition
  therefore asks 0 ≤ key < 64 of every key (Proof/PreRange.lean reads it back from the printed predicate).

  The three frames are the generated frame runs; the idealization rewrote nothing.
-/
import proofs.«403612_j56538949484911_1_alg».proof.Defs
import proofs.«403612_j56538949484911_1_alg».proof.Proof.Gen.Kernel
import proofs.«403612_j56538949484911_1_alg».proof.Proof.Gen.Kernel.Skeleton
import proofs.«403612_j56538949484911_1_alg».proof.Proof.Gen.Kernel.Launch
import proofs.«403612_j56538949484911_1_alg».proof.Proof.Gen.Kernel.Points
import proofs.«403612_j56538949484911_1_alg».proof.Proof.Gen.Kernel.Frame
import proofs.«403612_j56538949484911_1_alg».proof.Proof.Gen.KernelIdeal
import proofs.«403612_j56538949484911_1_alg».proof.Proof.Gen.KernelIdeal.Skeleton
import proofs.«403612_j56538949484911_1_alg».proof.Proof.Gen.KernelIdeal.Launch
import proofs.«403612_j56538949484911_1_alg».proof.Proof.Gen.KernelIdeal.Points
import proofs.«403612_j56538949484911_1_alg».proof.Proof.Gen.KernelIdeal.Frame
import proofs.«403612_j56538949484911_1_alg».proof.Proof.Gen.ReferenceIdeal
import proofs.«403612_j56538949484911_1_alg».proof.Proof.Gen.Pre_finite_inputs
import proofs.«403612_j56538949484911_1_alg».proof.Proof.Gen.ReferenceIdeal.Run
import proofs.«403612_j56538949484911_1_alg».proof.Proof.Gen.ReferenceIdeal.Read
import proofs.«403612_j56538949484911_1_alg».proof.Proof.KernelValue
import proofs.«403612_j56538949484911_1_alg».proof.Proof.RefValue
import proofs.«403612_j56538949484911_1_alg».proof.Proof.PreRange
import Idealize.ShloMosaic.Adequacy
import Idealize.ShloMosaic.Init

noncomputable section

namespace Cert.Proof

open Idealize.ShloMosaic Idealize.SL.Sem Cert.GridCells

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the grid average of the arguments: the kernel's by its accumulator's invariant, the reference's by
    reading its two scatters, the keys in range by the precondition. -/
theorem algebraic : Cert.algebraic_KernelIdeal_ReferenceIdeal := by
  intro m ρ m' ρ' hpre hagree
  refine ⟨fun c => gridAvg (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.AccValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, (hagree c).1, (hagree c).2]
  exact Cert.ReferenceIdeal.RefValue.ref_eq _ _ (keys_of_pre _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
